-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2 : Shape := ⟨2, ![4096, 2]⟩
abbrev S16x1024x512 : Shape := ⟨3, ![16, 1024, 512]⟩
abbrev S16x512x1024 : Shape := ⟨3, ![16, 512, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S16x1024x512 : S_.BroadcastsInDim S16x1024x512 (![] : Fin 0 → Fin S16x1024x512.rank)
  reducesTo_S16x1024x512_S_d0_1_2 : S16x1024x512.ReducesTo [0, 1, 2] S_
  bcast_S_S16x512x1024 : S_.BroadcastsInDim S16x512x1024 (![] : Fin 0 → Fin S16x512x1024.rank)
  reducesTo_S16x512x1024_S_d0_1_2 : S16x512x1024.ReducesTo [0, 1, 2] S_

variable [Facts]

def fn_part1 {F : FTy → Type} [FloatOps F] (main_arg5 : FVec F S16x512x1024 .f32) (main_v13 : IVec S_ 1) (main_v16 : IVec S16x1024x512 1) : IVec S_ 1 :=
  let main_c_5 : IVec S_ 1 := constantI S_ 1 1#1
  let main_v17 : IVec S_ 1 := (fun x v => Host.reduce IntOp.andi x v reducesTo_S16x1024x512_S_d0_1_2 h_S_) main_v16 main_c_5
  let main_v18 : IVec S_ 1 := andi main_v13 main_v17
  let main_v19 : FVec F S16x512x1024 .f32 := Host.absf main_arg5
  let main_cst_6 : FVec F S_ .f32 := constant S_ .f32 0x7F800000#32
  let main_v20 : FVec F S16x512x1024 .f32 := broadcastInDim S16x512x1024 ![] bcast_S_S16x512x1024 main_cst_6
  let main_v21 : IVec S16x512x1024 1 := cmpf .olt main_v19 main_v20
  let main_c_7 : IVec S_ 1 := constantI S_ 1 1#1
  let main_v22 : IVec S_ 1 := (fun x v => Host.reduce IntOp.andi x v reducesTo_S16x512x1024_S_d0_1_2 h_S_) main_v21 main_c_7
  let main_v23 : IVec S_ 1 := andi main_v18 main_v22
  main_v23

def fn {F : FTy → Type} [FloatOps F] (main_arg0 : FVec F S4096x1024 .f32) (main_arg1 : IVec S4096x2 32) (main_arg2 : FVec F S4096x2 .f32) (main_arg3 : FVec F S16x1024x512 .f32) (main_arg4 : FVec F S16x1024x512 .f32) (main_arg5 : FVec F S16x512x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S16x1024x512 .f32 := Host.absf main_arg3
  let main_cst_2 : FVec F S_ .f32 := constant S_ .f32 0x7F800000#32
  let main_v10 : FVec F S16x1024x512 .f32 := broadcastInDim S16x1024x512 ![] bcast_S_S16x1024x512 main_cst_2
  let main_v11 : IVec S16x1024x512 1 := cmpf .olt main_v9 main_v10
  let main_c_3 : IVec S_ 1 := constantI S_ 1 1#1
  let main_v12 : IVec S_ 1 := (fun x v => Host.reduce IntOp.andi x v reducesTo_S16x1024x512_S_d0_1_2 h_S_) main_v11 main_c_3
  let main_v13 : IVec S_ 1 := andi main_v8 main_v12
  let main_v14 : FVec F S16x1024x512 .f32 := Host.absf main_arg4
  let main_cst_4 : FVec F S_ .f32 := constant S_ .f32 0x7F800000#32
  let main_v15 : FVec F S16x1024x512 .f32 := broadcastInDim S16x1024x512 ![] bcast_S_S16x1024x512 main_cst_4
  let main_v16 : IVec S16x1024x512 1 := cmpf .olt main_v14 main_v15
  fn_part1 (F := F) main_arg5 main_v13 main_v16
-- ==== Kernel.lean ====
abbrev S4096x1024 : Shape := ⟨2, ![4096, 1024]⟩
abbrev S4096x2 : Shape := ⟨2, ![4096, 2]⟩
abbrev S16x1024x512 : Shape := ⟨3, ![16, 1024, 512]⟩
abbrev S16x512x1024 : Shape := ⟨3, ![16, 512, 1024]⟩
abbrev S8192 : Shape := ⟨1, ![8192]⟩
abbrev S_ : Shape := ⟨0, ![]⟩
abbrev S8192x1 : Shape := ⟨2, ![8192, 1]⟩
abbrev S16 : Shape := ⟨1, ![16]⟩
abbrev S32769x1024 : Shape := ⟨2, ![32769, 1024]⟩
abbrev S8192x1024 : Shape := ⟨2, ![8192, 1024]⟩
abbrev S32768x1024 : Shape := ⟨2, ![32768, 1024]⟩
abbrev S16x2048x1024 : Shape := ⟨3, ![16, 2048, 1024]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 156
  | .vmem => 10
  | .smem => 0
  | _ => 0

abbrev hbmTy0_0 (i : Nat) : BufTy := match i % 128 with
  | 0 => ⟨S4096x1024, .f32⟩
  | 1 => ⟨S4096x2, .i32⟩
  | 2 => ⟨S4096x2, .f32⟩
  | 3 => ⟨S16x1024x512, .f32⟩
  | 4 => ⟨S16x1024x512, .f32⟩
  | 5 => ⟨S16x512x1024, .f32⟩
  | 6 => ⟨S8192, .i32⟩
  | 7 => ⟨S8192, .f32⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192, .f32⟩
  | 57 => ⟨S_, .i32⟩
  | 58 => ⟨S16, .i32⟩
  | 59 => ⟨S_, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S_, .i32⟩
  | 72 => ⟨S8192, .i32⟩
  | 73 => ⟨S16, .i32⟩
  | 74 => ⟨S_, .i32⟩
  | 75 => ⟨S_, .i32⟩
  | 76 => ⟨S16, .i32⟩
  | 77 => ⟨S16, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S_, .i32⟩
  | 97 => ⟨S_, .i32⟩
  | 98 => ⟨S8192, .i32⟩
  | 99 => ⟨S8192, .i32⟩
  | 100 => ⟨S4096x1024, .bf16⟩
  | 101 => ⟨S_, .bf16⟩
  | 102 => ⟨S32769x1024, .bf16⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x1024, .bf16⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S32769x1024, .bf16⟩
  | 121 => ⟨S32768x1024, .bf16⟩
  | 122 => ⟨S16x2048x1024, .bf16⟩
  | 123 => ⟨S16x1024x512, .bf16⟩
  | 124 => ⟨S16x1024x512, .bf16⟩
  | 125 => ⟨S16x512x1024, .bf16⟩
  | 126 => ⟨S16x2048x1024, .f32⟩
  | 127 => ⟨S32768x1024, .f32⟩
  | _ => ⟨S4096x1024, .f32⟩

abbrev hbmTy0_1 (i : Nat) : BufTy := match i % 128 with
  | 0 => ⟨S_, .i32⟩
  | 1 => ⟨S8192, .i32⟩
  | 2 => ⟨S8192, .i32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x1024, .f32⟩
  | 12 => ⟨S8192, .f32⟩
  | 13 => ⟨S8192, .f32⟩
  | 14 => ⟨S8192x1, .f32⟩
  | 15 => ⟨S8192x1024, .f32⟩
  | 16 => ⟨S8192x1024, .f32⟩
  | 17 => ⟨S_, .f32⟩
  | 18 => ⟨S4096x1024, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_call1_v0 : Ref sig .tc := ⟨.hbm, 27, rfl⟩
abbrev main_call1_v1_0 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_v27 : Ref sig .tc := ⟨.hbm, 62, rfl⟩
abbrev main_c_8 : Ref sig .tc := ⟨.hbm, 63, rfl⟩
abbrev main_v28 : Ref sig .tc := ⟨.hbm, 64, rfl⟩
abbrev main_v29 : Ref sig .tc := ⟨.hbm, 65, rfl⟩
abbrev main_c_9 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_10 : Ref sig .tc := ⟨.hbm, 71, rfl⟩
abbrev main_v34 : Ref sig .tc := ⟨.hbm, 72, rfl⟩
abbrev main_v35 : Ref sig .tc := ⟨.hbm, 73, rfl⟩
abbrev main_call3_call0_c : Ref sig .tc := ⟨.hbm, 74, rfl⟩
abbrev main_call3_call0_v0 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_11 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_c_13 : Ref sig .tc := ⟨.hbm, 89, rfl⟩
abbrev main_v47 : Ref sig .tc := ⟨.hbm, 90, rfl⟩
abbrev main_v48 : Ref sig .tc := ⟨.hbm, 91, rfl⟩
abbrev main_c_14 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_15 : Ref sig .tc := ⟨.hbm, 96, rfl⟩
abbrev main_call4_v0 : Ref sig .tc := ⟨.hbm, 97, rfl⟩
abbrev main_call4_v1 : Ref sig .tc := ⟨.hbm, 98, rfl⟩
abbrev main_v52 : Ref sig .tc := ⟨.hbm, 99, rfl⟩
abbrev main_v53 : Ref sig .tc := ⟨.hbm, 100, rfl⟩
abbrev main_cst : Ref sig .tc := ⟨.hbm, 101, rfl⟩
abbrev main_v54 : Ref sig .tc := ⟨.hbm, 102, rfl⟩
abbrev main_c_16 : Ref sig .tc := ⟨.hbm, 103, rfl⟩
abbrev main_v55 : Ref sig .tc := ⟨.hbm, 104, rfl⟩
abbrev main_v56 : Ref sig .tc := ⟨.hbm, 105, rfl⟩
abbrev main_c_17 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_c_18 : Ref sig .tc := ⟨.hbm, 112, rfl⟩
abbrev main_v62 : Ref sig .tc := ⟨.hbm, 113, rfl⟩
abbrev main_v63 : Ref sig .tc := ⟨.hbm, 114, rfl⟩
abbrev main_c_19 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_20 : Ref sig .tc := ⟨.hbm, 128, rfl⟩
abbrev main_v76 : Ref sig .tc := ⟨.hbm, 129, rfl⟩
abbrev main_v77 : Ref sig .tc := ⟨.hbm, 130, rfl⟩
abbrev main_c_21 : Ref sig .tc := ⟨.hbm, 131, rfl⟩
abbrev main_v78 : Ref sig .tc := ⟨.hbm, 132, rfl⟩
abbrev main_v79 : Ref sig .tc := ⟨.hbm, 133, rfl⟩
abbrev main_c_22 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_23 : Ref sig .tc := ⟨.hbm, 145, rfl⟩
abbrev main_v90 : Ref sig .tc := ⟨.hbm, 146, rfl⟩
abbrev main_c_24 : Ref sig .tc := ⟨.hbm, 147, rfl⟩
abbrev main_v91 : Ref sig .tc := ⟨.hbm, 148, rfl⟩
abbrev main_v92 : Ref sig .tc := ⟨.hbm, 149, rfl⟩
abbrev main_c_25 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096x2_S8192 : S4096x2.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bitsLt_bf16_f32 : FTy.bits .bf16 < FTy.bits .f32
  bcast_S_S32769x1024 : S_.BroadcastsInDim S32769x1024 (![] : Fin 0 → Fin S32769x1024.rank)
  slices_S32769x1024_S32768x1024_0_0 : S32769x1024.Slices ![0, 0] S32768x1024
  shapeCasts_S32768x1024_S16x2048x1024 : S32768x1024.ShapeCasts S16x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S512x1024_S1x512x1024 : S512x1024.ShapeCasts S1x512x1024
  shapeCasts_S16x2048x1024_S32768x1024 : S16x2048x1024.ShapeCasts S32768x1024
  bcast_S8192x1_S8192x1024_0_1 : S8192x1.BroadcastsInDim S8192x1024 (![0, 1] : Fin 2 → Fin S8192x1024.rank)
  bcast_S_S4096x1024 : S_.BroadcastsInDim S4096x1024 (![] : Fin 0 → Fin S4096x1024.rank)
  gather_S8192_S8192x1_S8192_n_0_n_n_0_1_1_wf : GatherDims.WF S8192 S8192x1 S8192 [] [0] [] [0] [] 1 ![1]
  scatter_S16_S8192x1_S8192_n_0_0_1_wf : ScatterDims.WF S16 S8192x1 S8192 [] [0] [0] 1
  gather_S16_S8192x1_S8192_n_0_n_n_0_1_1_wf : GatherDims.WF S16 S8192x1 S8192 [] [0] [] [0] [] 1 ![1]
  gather_S4096x1024_S8192x1_S8192x1024_1_0_n_n_0_1_11024_wf : GatherDims.WF S4096x1024 S8192x1 S8192x1024 [1] [0] [] [0] [] 1 ![1, 1024]
  scatter_S32769x1024_S8192x1_S8192x1024_1_0_0_1_wf : ScatterDims.WF S32769x1024 S8192x1 S8192x1024 [1] [0] [0] 1
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  gather_S32768x1024_S8192x1_S8192x1024_1_0_n_n_0_1_11024_wf : GatherDims.WF S32768x1024 S8192x1 S8192x1024 [1] [0] [] [0] [] 1 ![1, 1024]
  scatter_S4096x1024_S8192x1_S8192x1024_1_0_0_1_wf : ScatterDims.WF S4096x1024 S8192x1 S8192x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .bf16 = 32 ∨ (Rect.block (s := S16x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .bf16 = 32 ∨ (Rect.block (s := S16x1024x512) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S16x1024x512.size a
  hwx0_2 : ∀ i : grid0.Coords, EltTy.bits .bf16 = 32 ∨ (Rect.block (s := S16x1024x512) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x512x1024.size a
  hwx0_3 : ∀ i : grid0.Coords, EltTy.bits .bf16 = 32 ∨ (Rect.block (s := S16x512x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S16x2048x1024.size a
  hwx0_4 : ∀ i : grid0.Coords, EltTy.bits .f32 = 32 ∨ (Rect.block (s := S16x2048x1024) S1x512x1024.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S16_S8192x1_S8192_n_0_0_1 : ScatterDims S16 S8192x1 S8192 where
  updateWindowDims := []
  insertedWindowDims := [0]
  scatterDimsToOperandDims := [0]
  indexVectorDim := 1
  wf := scatter_S16_S8192x1_S8192_n_0_0_1_wf
def gather_S16_S8192x1_S8192_n_0_n_n_0_1_1 : GatherDims S16 S8192x1 S8192 where
  offsetDims := []
  collapsedSliceDims := [0]
  operandBatchingDims := []
  startIndicesBatchingDims := []
  startIndexMap := [0]
  indexVectorDim := 1
  sliceSizes := ![1]
  wf := gather_S16_S8192x1_S8192_n_0_n_n_0_1_1_wf
def gather_S4096x1024_S8192x1_S8192x1024_1_0_n_n_0_1_11024 : GatherDims S4096x1024 S8192x1 S8192x1024 where
  offsetDims := [1]
  collapsedSliceDims := [0]
  operandBatchingDims := []
  startIndicesBatchingDims := []
  startIndexMap := [0]
  indexVectorDim := 1
  sliceSizes := ![1, 1024]
  wf := gather_S4096x1024_S8192x1_S8192x1024_1_0_n_n_0_1_11024_wf
def scatter_S32769x1024_S8192x1_S8192x1024_1_0_0_1 : ScatterDims S32769x1024 S8192x1 S8192x1024 where
  updateWindowDims := [1]
  insertedWindowDims := [0]
  scatterDimsToOperandDims := [0]
  indexVectorDim := 1
  wf := scatter_S32769x1024_S8192x1_S8192x1024_1_0_0_1_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def gather_S32768x1024_S8192x1_S8192x1024_1_0_n_n_0_1_11024 : GatherDims S32768x1024 S8192x1 S8192x1024 where
  offsetDims := [1]
  collapsedSliceDims := [0]
  operandBatchingDims := []
  startIndicesBatchingDims := []
  startIndexMap := [0]
  indexVectorDim := 1
  sliceSizes := ![1, 1024]
  wf := gather_S32768x1024_S8192x1_S8192x1024_1_0_n_n_0_1_11024_wf
def scatter_S4096x1024_S8192x1_S8192x1024_1_0_0_1 : ScatterDims S4096x1024 S8192x1 S8192x1024 where
  updateWindowDims := [1]
  insertedWindowDims := [0]
  scatterDimsToOperandDims := [0]
  indexVectorDim := 1
  wf := scatter_S4096x1024_S8192x1_S8192x1024_1_0_0_1_wf

abbrev win0_0 : Pipeline.Window sig grid0 :=
  Pipeline.Window.ofSpec (Memref.whole main_v70) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v73) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v74) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2 : Shape := ⟨2, ![4096, 2]⟩
abbrev S16x1024x512 : Shape := ⟨3, ![16, 1024, 512]⟩
abbrev S16x512x1024 : Shape := ⟨3, ![16, 512, 1024]⟩
abbrev S8192 : Shape := ⟨1, ![8192]⟩
abbrev S_ : Shape := ⟨0, ![]⟩
abbrev S8192x1 : Shape := ⟨2, ![8192, 1]⟩
abbrev S16 : Shape := ⟨1, ![16]⟩
abbrev S32769x1024 : Shape := ⟨2, ![32769, 1024]⟩
abbrev S8192x1024 : Shape := ⟨2, ![8192, 1024]⟩
abbrev S32768x1024 : Shape := ⟨2, ![32768, 1024]⟩
abbrev S16x2048x1024 : Shape := ⟨3, ![16, 2048, 1024]⟩
abbrev S16x2048x512 : Shape := ⟨3, ![16, 2048, 512]⟩

abbrev nBuf : Space → Nat
  | .hbm => 164
  | .vmem => 0
  | .smem => 0
  | _ => 0

abbrev hbmTy0_0 (i : Nat) : BufTy := match i % 128 with
  | 0 => ⟨S4096x1024, .f32⟩
  | 1 => ⟨S4096x2, .i32⟩
  | 2 => ⟨S4096x2, .f32⟩
  | 3 => ⟨S16x1024x512, .f32⟩
  | 4 => ⟨S16x1024x512, .f32⟩
  | 5 => ⟨S16x512x1024, .f32⟩
  | 6 => ⟨S8192, .i32⟩
  | 7 => ⟨S8192, .f32⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192, .f32⟩
  | 57 => ⟨S_, .i32⟩
  | 58 => ⟨S16, .i32⟩
  | 59 => ⟨S_, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S_, .i32⟩
  | 72 => ⟨S8192, .i32⟩
  | 73 => ⟨S16, .i32⟩
  | 74 => ⟨S_, .i32⟩
  | 75 => ⟨S_, .i32⟩
  | 76 => ⟨S16, .i32⟩
  | 77 => ⟨S16, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S_, .i32⟩
  | 97 => ⟨S_, .i32⟩
  | 98 => ⟨S8192, .i32⟩
  | 99 => ⟨S8192, .i32⟩
  | 100 => ⟨S_, .f32⟩
  | 101 => ⟨S32769x1024, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x1024, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S32769x1024, .f32⟩
  | 120 => ⟨S32768x1024, .f32⟩
  | 121 => ⟨S16x2048x1024, .f32⟩
  | 122 => ⟨S16x2048x512, .f32⟩
  | 123 => ⟨S16x2048x512, .f32⟩
  | 124 => ⟨S16x2048x512, .f32⟩
  | 125 => ⟨S_, .f32⟩
  | 126 => ⟨S16x2048x512, .f32⟩
  | 127 => ⟨S16x2048x512, .f32⟩
  | _ => ⟨S4096x1024, .f32⟩

abbrev hbmTy0_1 (i : Nat) : BufTy := match i % 128 with
  | 0 => ⟨S_, .f32⟩
  | 1 => ⟨S16x2048x512, .f32⟩
  | 2 => ⟨S16x2048x512, .f32⟩
  | 3 => ⟨S16x2048x512, .f32⟩
  | 4 => ⟨S16x2048x512, .f32⟩
  | 5 => ⟨S16x2048x512, .f32⟩
  | 6 => ⟨S16x2048x1024, .f32⟩
  | 7 => ⟨S32768x1024, .f32⟩
  | 8 => ⟨S_, .i32⟩
  | 9 => ⟨S8192, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x1024, .f32⟩
  | 20 => ⟨S8192, .f32⟩
  | 21 => ⟨S8192, .f32⟩
  | 22 => ⟨S8192x1, .f32⟩
  | 23 => ⟨S8192x1024, .f32⟩
  | 24 => ⟨S8192x1024, .f32⟩
  | 25 => ⟨S_, .f32⟩
  | 26 => ⟨S4096x1024, .f32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_call1_v0 : Ref sig .tc := ⟨.hbm, 27, rfl⟩
abbrev main_call1_v1_0 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_v27 : Ref sig .tc := ⟨.hbm, 62, rfl⟩
abbrev main_c_8 : Ref sig .tc := ⟨.hbm, 63, rfl⟩
abbrev main_v28 : Ref sig .tc := ⟨.hbm, 64, rfl⟩
abbrev main_v29 : Ref sig .tc := ⟨.hbm, 65, rfl⟩
abbrev main_c_9 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_10 : Ref sig .tc := ⟨.hbm, 71, rfl⟩
abbrev main_v34 : Ref sig .tc := ⟨.hbm, 72, rfl⟩
abbrev main_v35 : Ref sig .tc := ⟨.hbm, 73, rfl⟩
abbrev main_call3_call0_c : Ref sig .tc := ⟨.hbm, 74, rfl⟩
abbrev main_call3_call0_v0 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_11 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_c_13 : Ref sig .tc := ⟨.hbm, 89, rfl⟩
abbrev main_v47 : Ref sig .tc := ⟨.hbm, 90, rfl⟩
abbrev main_v48 : Ref sig .tc := ⟨.hbm, 91, rfl⟩
abbrev main_c_14 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_15 : Ref sig .tc := ⟨.hbm, 96, rfl⟩
abbrev main_call4_v0 : Ref sig .tc := ⟨.hbm, 97, rfl⟩
abbrev main_call4_v1 : Ref sig .tc := ⟨.hbm, 98, rfl⟩
abbrev main_v52 : Ref sig .tc := ⟨.hbm, 99, rfl⟩
abbrev main_cst : Ref sig .tc := ⟨.hbm, 100, rfl⟩
abbrev main_v53 : Ref sig .tc := ⟨.hbm, 101, rfl⟩
abbrev main_c_16 : Ref sig .tc := ⟨.hbm, 102, rfl⟩
abbrev main_v54 : Ref sig .tc := ⟨.hbm, 103, rfl⟩
abbrev main_v55 : Ref sig .tc := ⟨.hbm, 104, rfl⟩
abbrev main_c_17 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_18 : Ref sig .tc := ⟨.hbm, 111, rfl⟩
abbrev main_v61 : Ref sig .tc := ⟨.hbm, 112, rfl⟩
abbrev main_v62 : Ref sig .tc := ⟨.hbm, 113, rfl⟩
abbrev main_c_19 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_call5_v0 : Ref sig .tc := ⟨.hbm, 123, rfl⟩
abbrev main_call5_v1 : Ref sig .tc := ⟨.hbm, 124, rfl⟩
abbrev main_call5_cst : Ref sig .tc := ⟨.hbm, 125, rfl⟩
abbrev main_call5_v2 : Ref sig .tc := ⟨.hbm, 126, rfl⟩
abbrev main_call5_v3 : Ref sig .tc := ⟨.hbm, 127, rfl⟩
abbrev main_call5_cst_0 : Ref sig .tc := ⟨.hbm, 128, rfl⟩
abbrev main_call5_v4 : Ref sig .tc := ⟨.hbm, 129, rfl⟩
abbrev main_call5_v5 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_c_20 : Ref sig .tc := ⟨.hbm, 136, rfl⟩
abbrev main_v76 : Ref sig .tc := ⟨.hbm, 137, rfl⟩
abbrev main_v77 : Ref sig .tc := ⟨.hbm, 138, rfl⟩
abbrev main_c_21 : Ref sig .tc := ⟨.hbm, 139, rfl⟩
abbrev main_v78 : Ref sig .tc := ⟨.hbm, 140, rfl⟩
abbrev main_v79 : Ref sig .tc := ⟨.hbm, 141, rfl⟩
abbrev main_c_22 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_23 : Ref sig .tc := ⟨.hbm, 153, rfl⟩
abbrev main_v90 : Ref sig .tc := ⟨.hbm, 154, rfl⟩
abbrev main_c_24 : Ref sig .tc := ⟨.hbm, 155, rfl⟩
abbrev main_v91 : Ref sig .tc := ⟨.hbm, 156, rfl⟩
abbrev main_v92 : Ref sig .tc := ⟨.hbm, 157, rfl⟩
abbrev main_c_25 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩

abbrev nD : Nat := 1
abbrev τ : Topo := Topo.v7x

variable {F : FTy → Type} [FloatOps F]

class Facts₀ : Prop where
  shapeCasts_S4096x2_S8192 : S4096x2.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S32769x1024 : S_.BroadcastsInDim S32769x1024 (![] : Fin 0 → Fin S32769x1024.rank)
  slices_S32769x1024_S32768x1024_0_0 : S32769x1024.Slices ![0, 0] S32768x1024
  shapeCasts_S32768x1024_S16x2048x1024 : S32768x1024.ShapeCasts S16x2048x1024
  bcast_S_S16x2048x512 : S_.BroadcastsInDim S16x2048x512 (![] : Fin 0 → Fin S16x2048x512.rank)
  shapeCasts_S16x2048x1024_S32768x1024 : S16x2048x1024.ShapeCasts S32768x1024
  bcast_S8192x1_S8192x1024_0_1 : S8192x1.BroadcastsInDim S8192x1024 (![0, 1] : Fin 2 → Fin S8192x1024.rank)
  bcast_S_S4096x1024 : S_.BroadcastsInDim S4096x1024 (![] : Fin 0 → Fin S4096x1024.rank)
  gather_S8192_S8192x1_S8192_n_0_n_n_0_1_1_wf : GatherDims.WF S8192 S8192x1 S8192 [] [0] [] [0] [] 1 ![1]
  scatter_S16_S8192x1_S8192_n_0_0_1_wf : ScatterDims.WF S16 S8192x1 S8192 [] [0] [0] 1
  gather_S16_S8192x1_S8192_n_0_n_n_0_1_1_wf : GatherDims.WF S16 S8192x1 S8192 [] [0] [] [0] [] 1 ![1]
  gather_S4096x1024_S8192x1_S8192x1024_1_0_n_n_0_1_11024_wf : GatherDims.WF S4096x1024 S8192x1 S8192x1024 [1] [0] [] [0] [] 1 ![1, 1024]
  scatter_S32769x1024_S8192x1_S8192x1024_1_0_0_1_wf : ScatterDims.WF S32769x1024 S8192x1 S8192x1024 [1] [0] [0] 1
  dot_S16x2048x1024_S16x1024x512_S16x2048x512_2_1_1_2_0_0_wf : DotDims.WF S16x2048x1024 S16x1024x512 S16x2048x512 [2] [1] [1] [2] [0] [0]
  dot_S16x2048x512_S16x512x1024_S16x2048x1024_2_1_1_2_0_0_wf : DotDims.WF S16x2048x512 S16x512x1024 S16x2048x1024 [2] [1] [1] [2] [0] [0]
  gather_S32768x1024_S8192x1_S8192x1024_1_0_n_n_0_1_11024_wf : GatherDims.WF S32768x1024 S8192x1 S8192x1024 [1] [0] [] [0] [] 1 ![1, 1024]
  scatter_S4096x1024_S8192x1_S8192x1024_1_0_0_1_wf : ScatterDims.WF S4096x1024 S8192x1 S8192x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S16_S8192x1_S8192_n_0_0_1 : ScatterDims S16 S8192x1 S8192 where
  updateWindowDims := []
  insertedWindowDims := [0]
  scatterDimsToOperandDims := [0]
  indexVectorDim := 1
  wf := scatter_S16_S8192x1_S8192_n_0_0_1_wf
def gather_S16_S8192x1_S8192_n_0_n_n_0_1_1 : GatherDims S16 S8192x1 S8192 where
  offsetDims := []
  collapsedSliceDims := [0]
  operandBatchingDims := []
  startIndicesBatchingDims := []
  startIndexMap := [0]
  indexVectorDim := 1
  sliceSizes := ![1]
  wf := gather_S16_S8192x1_S8192_n_0_n_n_0_1_1_wf
def gather_S4096x1024_S8192x1_S8192x1024_1_0_n_n_0_1_11024 : GatherDims S4096x1024 S8192x1 S8192x1024 where
  offsetDims := [1]
  collapsedSliceDims := [0]
  operandBatchingDims := []
  startIndicesBatchingDims := []
  startIndexMap := [0]
  indexVectorDim := 1
  sliceSizes := ![1, 1024]
  wf := gather_S4096x1024_S8192x1_S8192x1024_1_0_n_n_0_1_11024_wf
def scatter_S32769x1024_S8192x1_S8192x1024_1_0_0_1 : ScatterDims S32769x1024 S8192x1 S8192x1024 where
  updateWindowDims := [1]
  insertedWindowDims := [0]
  scatterDimsToOperandDims := [0]
  indexVectorDim := 1
  wf := scatter_S32769x1024_S8192x1_S8192x1024_1_0_0_1_wf
def dot_S16x2048x1024_S16x1024x512_S16x2048x512_2_1_1_2_0_0 : DotDims S16x2048x1024 S16x1024x512 S16x2048x512 where
  lhsContracting := [2]
  rhsContracting := [1]
  lhsNonContracting := [1]
  rhsNonContracting := [2]
  lhsBatch := [0]
  rhsBatch := [0]
  wf := dot_S16x2048x1024_S16x1024x512_S16x2048x512_2_1_1_2_0_0_wf
def dot_S16x2048x512_S16x512x1024_S16x2048x1024_2_1_1_2_0_0 : DotDims S16x2048x512 S16x512x1024 S16x2048x1024 where
  lhsContracting := [2]
  rhsContracting := [1]
  lhsNonContracting := [1]
  rhsNonContracting := [2]
  lhsBatch := [0]
  rhsBatch := [0]
  wf := dot_S16x2048x512_S16x512x1024_S16x2048x1024_2_1_1_2_0_0_wf
def gather_S32768x1024_S8192x1_S8192x1024_1_0_n_n_0_1_11024 : GatherDims S32768x1024 S8192x1 S8192x1024 where
  offsetDims := [1]
  collapsedSliceDims := [0]
  operandBatchingDims := []
  startIndicesBatchingDims := []
  startIndexMap := [0]
  indexVectorDim := 1
  sliceSizes := ![1, 1024]
  wf := gather_S32768x1024_S8192x1_S8192x1024_1_0_n_n_0_1_11024_wf
def scatter_S4096x1024_S8192x1_S8192x1024_1_0_0_1 : ScatterDims S4096x1024 S8192x1 S8192x1024 where
  updateWindowDims := [1]
  insertedWindowDims := [0]
  scatterDimsToOperandDims := [0]
  indexVectorDim := 1
  wf := scatter_S4096x1024_S8192x1_S8192x1024_1_0_0_1_wf

class Facts : Prop extends Facts₀ where

variable [Facts]
-- ==== Proof.KernelRun.lean ====
/-
  The kernel program's run, read at its result: the region leaves the expert block's array and every other buffer as
  the host operations before it left them; the operations after the region then fold over those contents.
-/
import proofs.«111815_j24352464569736_1_alg».proof.Proof.Gen.KernelIdeal.Frame
import Idealize.ShloMosaic.Lib.StableHlo.Run

set_option maxRecDepth 16384

noncomputable section

namespace Cert.KernelIdeal.Run

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Core `c`'s buffers when the region ends: the region's five arrays at what the write-backs left, every other
    buffer as the host operations before the region left it. -/
abbrev W (c : Dev nD) : Valuation τ sig (Elt F) :=
  Pipeline.withArrays spec0 c (V0 m c) fun w => (dats m 0 c).arrAt w cfg0.N

/-- The region's result array is what the write-backs left. -/
theorem W_v74 (c : Dev nD) : W m c (Proc.devRef .tc main_v74) = (dats m 0 c).arrAt 4 cfg0.N :=
  Pipeline.withArrays_arr spec0 launch0.win.arr_inj c _ _ 4

/-- A buffer that is no array of the region is as the host operations before the region left it. -/
theorem W_of_ne (c : Dev nD) (b : Ref sig .tc) (hb : ∀ w, Pipeline.arrRef spec0 w ≠ b) :
    W m c (Proc.devRef .tc b) = V0 m c (Proc.devRef .tc b) :=
  Pipeline.withArrays_of_ne spec0 c (V0 m c) _ b hb

/-- Every weakly fair execution of @main terminates; the result buffer ends at the fold of the operations after the
    region over the buffers at the region's end, and the argument arrays as launched. -/
theorem run : θ_run defs (onTc (τ := τ) (main (F := F))) ⟨m, fun _ => 0, ρ⟩ fun r => ∀ c : Dev nD,
      r.2.mem ((c.tc : Thread nD τ).loc main_v97) = after hostOps1 (W m c) (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).2 main_v97 (Pipeline.mem_restRefs_of main_v97 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Run

end
-- ==== Proof.RefOps.lean ====
/-
  The reference program's host operations, in order: 158 in all, a module-local function's operations
  listed at its call over that call's buffers; and the same list as four consecutive stretches: the routing
  (up to the slot of each sorted (token, expert) pair), the dispatch into per-expert rows, the three batched
  contractions around the gated activation, and the weighted combine.
-/
import proofs.«111815_j24352464569736_1_alg».proof.ReferenceIdeal
import proofs.«111815_j24352464569736_1_alg».proof.Proof.Gen.ReferenceIdeal
import Idealize.ShloMosaic.Lib.StableHlo.Run

noncomputable section

namespace Cert.ReferenceIdeal.Run

open Cert.ReferenceIdeal Cert.ReferenceIdeal.Facts₀ Idealize.ShloMosaic Idealize.ShloMosaic.TcCoe Idealize.SL.Sem

variable {F : FTy → Type} [FloatOps F]

/-- @main's 158 operations, in order. -/
abbrev ops : List (HloOp τ sig (Elt F)) :=
  [ StableHlo.reshape main_arg1 main_v0 rfl shapeCasts_S4096x2_S8192,
    StableHlo.reshape main_arg2 main_v1 rfl shapeCasts_S4096x2_S8192,
    StableHlo.nullary main_v2 (iotaInDim S8192 32 0),
    StableHlo.nullary main_c (constantI S_ 32 2#32),
    StableHlo.TRef.unary (.of main_c : StableHlo.TRef sig ⟨S_, .i32⟩) main_call0.v0 id,
    StableHlo.TRef.unary main_call0.v0 main_call0.v1 (broadcastInDim S8192 ![] bcast_S_S8192),
    StableHlo.TRef.binary (.of main_v2 : StableHlo.TRef sig ⟨S8192, .i32⟩) main_call0.v1 main_call0.v2 Host.divsi,
    StableHlo.TRef.unary (.of main_v2 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (.of main_v2 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.TRef.nullary main_call1.v0 (iotaInDim S8192 32 0),
    StableHlo.TRef.binary (.of main_v0 : StableHlo.TRef sig ⟨S8192, .i32⟩) main_call1.v0 main_call1.v1_0 (fun x y => (Host.sort2 S8192 0 comparator_i32_i32_d0 x y).1),
    StableHlo.TRef.binary (.of main_v0 : StableHlo.TRef sig ⟨S8192, .i32⟩) main_call1.v0 main_call1.v1_1 (fun x y => (Host.sort2 S8192 0 comparator_i32_i32_d0 x y).2),
    StableHlo.nullary main_c_0 (constantI S_ 32 0#32),
    StableHlo.unary main_c_0 main_v5 (broadcastInDim S8192 ![] bcast_S_S8192 : (⟨S_, .i32⟩ : BufTy).Contents (Elt F) → (⟨S8192, .i32⟩ : BufTy).Contents (Elt F)),
    StableHlo.binary main_v4 main_v5 main_v6 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 8192#32),
    StableHlo.unary main_c_1 main_v7 (broadcastInDim S8192 ![] bcast_S_S8192 : (⟨S_, .i32⟩ : BufTy).Contents (Elt F) → (⟨S8192, .i32⟩ : BufTy).Contents (Elt F)),
    StableHlo.binary main_v4 main_v7 main_v8 (addi : (⟨S8192, .i32⟩ : BufTy).Contents (Elt F) → (⟨S8192, .i32⟩ : BufTy).Contents (Elt F) → (⟨S8192, .i32⟩ : BufTy).Contents (Elt F)),
    StableHlo.ternary main_v6 main_v8 main_v4 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v9 main_v10 (broadcastInDim S8192x1 ![0] bcast_S8192_S8192x1_0 : (⟨S8192, .i32⟩ : BufTy).Contents (Elt F) → (⟨S8192x1, .i32⟩ : BufTy).Contents (Elt F)),
    StableHlo.binary main_v0 main_v10 main_v11 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_2 (constantI S_ 32 0#32),
    StableHlo.unary main_c_2 main_v12 (broadcastInDim S8192 ![] bcast_S_S8192 : (⟨S_, .i32⟩ : BufTy).Contents (Elt F) → (⟨S8192, .i32⟩ : BufTy).Contents (Elt F)),
    StableHlo.binary main_v4 main_v12 main_v13 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v14 (broadcastInDim S8192 ![] bcast_S_S8192 : (⟨S_, .i32⟩ : BufTy).Contents (Elt F) → (⟨S8192, .i32⟩ : BufTy).Contents (Elt F)),
    StableHlo.binary main_v4 main_v14 main_v15 (addi : (⟨S8192, .i32⟩ : BufTy).Contents (Elt F) → (⟨S8192, .i32⟩ : BufTy).Contents (Elt F) → (⟨S8192, .i32⟩ : BufTy).Contents (Elt F)),
    StableHlo.ternary main_v13 main_v15 main_v4 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v16 main_v17 (broadcastInDim S8192x1 ![0] bcast_S8192_S8192x1_0 : (⟨S8192, .i32⟩ : BufTy).Contents (Elt F) → (⟨S8192x1, .i32⟩ : BufTy).Contents (Elt F)),
    StableHlo.binary main_v3 main_v17 main_v18 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_4 (constantI S_ 32 0#32),
    StableHlo.unary main_c_4 main_v19 (broadcastInDim S8192 ![] bcast_S_S8192 : (⟨S_, .i32⟩ : BufTy).Contents (Elt F) → (⟨S8192, .i32⟩ : BufTy).Contents (Elt F)),
    StableHlo.binary main_v4 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v21 (broadcastInDim S8192 ![] bcast_S_S8192 : (⟨S_, .i32⟩ : BufTy).Contents (Elt F) → (⟨S8192, .i32⟩ : BufTy).Contents (Elt F)),
    StableHlo.binary main_v4 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v4 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v24 (broadcastInDim S8192x1 ![0] bcast_S8192_S8192x1_0 : (⟨S8192, .i32⟩ : BufTy).Contents (Elt F) → (⟨S8192x1, .i32⟩ : BufTy).Contents (Elt F)),
    StableHlo.binary main_v1 main_v24 main_v25 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    StableHlo.nullary main_c_6 (constantI S_ 32 0#32),
    StableHlo.unary main_c_6 main_v26 (broadcastInDim S16 ![] bcast_S_S16 : (⟨S_, .i32⟩ : BufTy).Contents (Elt F) → (⟨S16, .i32⟩ : BufTy).Contents (Elt F)),
    StableHlo.nullary main_c_7 (constantI S_ 32 0#32),
    StableHlo.TRef.unary (.of main_c_7 : StableHlo.TRef sig ⟨S_, .i32⟩) main_call2.v0 id,
    StableHlo.TRef.unary main_call2.v0 main_call2.v1 (broadcastInDim S8192 ![] bcast_S_S8192),
    StableHlo.TRef.binary main_call2.v1 (.of main_v0 : StableHlo.TRef sig ⟨S8192, .i32⟩) main_call2.v2 maxsi,
    StableHlo.nullary main_c_8 (constantI S_ 32 0#32),
    StableHlo.unary main_c_8 main_v28 (broadcastInDim S8192 ![] bcast_S_S8192 : (⟨S_, .i32⟩ : BufTy).Contents (Elt F) → (⟨S8192, .i32⟩ : BufTy).Contents (Elt F)),
    StableHlo.binary main_v27 main_v28 main_v29 (cmpi .slt : (⟨S8192, .i32⟩ : BufTy).Contents (Elt F) → (⟨S8192, .i32⟩ : BufTy).Contents (Elt F) → (⟨S8192, .i1⟩ : BufTy).Contents (Elt F)),
    StableHlo.nullary main_c_9 (constantI S_ 32 16#32),
    StableHlo.unary main_c_9 main_v30 (broadcastInDim S8192 ![] bcast_S_S8192 : (⟨S_, .i32⟩ : BufTy).Contents (Elt F) → (⟨S8192, .i32⟩ : BufTy).Contents (Elt F)),
    StableHlo.binary main_v27 main_v30 main_v31 (addi : (⟨S8192, .i32⟩ : BufTy).Contents (Elt F) → (⟨S8192, .i32⟩ : BufTy).Contents (Elt F) → (⟨S8192, .i32⟩ : BufTy).Contents (Elt F)),
    StableHlo.ternary main_v29 main_v31 main_v27 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v32 main_v33 (broadcastInDim S8192x1 ![0] bcast_S8192_S8192x1_0 : (⟨S8192, .i32⟩ : BufTy).Contents (Elt F) → (⟨S8192x1, .i32⟩ : BufTy).Contents (Elt F)),
    StableHlo.nullary main_c_10 (constantI S_ 32 1#32),
    StableHlo.unary main_c_10 main_v34 (broadcastInDim S8192 ![] bcast_S_S8192 : (⟨S_, .i32⟩ : BufTy).Contents (Elt F) → (⟨S8192, .i32⟩ : BufTy).Contents (Elt F)),
    StableHlo.ternary main_v26 main_v33 main_v34 main_v35 ((fun x i u => Host.scatter scatter_S16_S8192x1_S8192_n_0_0_1 IntOp.addi x i u) : (⟨S16, .i32⟩ : BufTy).Contents (Elt F) → (⟨S8192x1, .i32⟩ : BufTy).Contents (Elt F) → (⟨S8192, .i32⟩ : BufTy).Contents (Elt F) → (⟨S16, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v35 : StableHlo.TRef sig ⟨S16, .i32⟩) main_call3.call0.v0 main_call3.call0.v1 (fun x v => Host.reduceWindow IntOp.addi ![16] ![1] ![15] ![0] x v reduceWindows_S16_S16_w16s1p15_0 h_S_),
    StableHlo.binary main_v36 main_v35 main_v37 (subi : (⟨S16, .i32⟩ : BufTy).Contents (Elt F) → (⟨S16, .i32⟩ : BufTy).Contents (Elt F) → (⟨S16, .i32⟩ : BufTy).Contents (Elt F)),
    StableHlo.nullary main_v38 (iotaInDim S8192 32 0),
    StableHlo.nullary main_c_11 (constantI S_ 32 0#32),
    StableHlo.unary main_c_11 main_v39 (broadcastInDim S8192 ![] bcast_S_S8192 : (⟨S_, .i32⟩ : BufTy).Contents (Elt F) → (⟨S8192, .i32⟩ : BufTy).Contents (Elt F)),
    StableHlo.binary main_v11 main_v39 main_v40 (cmpi .slt : (⟨S8192, .i32⟩ : BufTy).Contents (Elt F) → (⟨S8192, .i32⟩ : BufTy).Contents (Elt F) → (⟨S8192, .i1⟩ : BufTy).Contents (Elt F)),
    StableHlo.nullary main_c_12 (constantI S_ 32 16#32),
    StableHlo.unary main_c_12 main_v41 (broadcastInDim S8192 ![] bcast_S_S8192 : (⟨S_, .i32⟩ : BufTy).Contents (Elt F) → (⟨S8192, .i32⟩ : BufTy).Contents (Elt F)),
    StableHlo.binary main_v11 main_v41 main_v42 (addi : (⟨S8192, .i32⟩ : BufTy).Contents (Elt F) → (⟨S8192, .i32⟩ : BufTy).Contents (Elt F) → (⟨S8192, .i32⟩ : BufTy).Contents (Elt F)),
    StableHlo.ternary main_v40 main_v42 main_v11 main_v43 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v43 main_v44 (broadcastInDim S8192x1 ![0] bcast_S8192_S8192x1_0 : (⟨S8192, .i32⟩ : BufTy).Contents (Elt F) → (⟨S8192x1, .i32⟩ : BufTy).Contents (Elt F)),
    StableHlo.binary main_v37 main_v44 main_v45 ((fun x i => Host.gather gather_S16_S8192x1_S8192_n_0_n_n_0_1_1 x i) : (⟨S16, .i32⟩ : BufTy).Contents (Elt F) → (⟨S8192x1, .i32⟩ : BufTy).Contents (Elt F) → (⟨S8192, .i32⟩ : BufTy).Contents (Elt F)),
    StableHlo.binary main_v38 main_v45 main_v46 (subi : (⟨S8192, .i32⟩ : BufTy).Contents (Elt F) → (⟨S8192, .i32⟩ : BufTy).Contents (Elt F) → (⟨S8192, .i32⟩ : BufTy).Contents (Elt F)),
    StableHlo.nullary main_c_13 (constantI S_ 32 2048#32),
    StableHlo.unary main_c_13 main_v47 (broadcastInDim S8192 ![] bcast_S_S8192 : (⟨S_, .i32⟩ : BufTy).Contents (Elt F) → (⟨S8192, .i32⟩ : BufTy).Contents (Elt F)),
    StableHlo.binary main_v46 main_v47 main_v48 (cmpi .slt : (⟨S8192, .i32⟩ : BufTy).Contents (Elt F) → (⟨S8192, .i32⟩ : BufTy).Contents (Elt F) → (⟨S8192, .i1⟩ : BufTy).Contents (Elt F)),
    StableHlo.nullary main_c_14 (constantI S_ 32 2048#32),
    StableHlo.unary main_c_14 main_v49 (broadcastInDim S8192 ![] bcast_S_S8192 : (⟨S_, .i32⟩ : BufTy).Contents (Elt F) → (⟨S8192, .i32⟩ : BufTy).Contents (Elt F)),
    StableHlo.binary main_v11 main_v49 main_v50 (muli : (⟨S8192, .i32⟩ : BufTy).Contents (Elt F) → (⟨S8192, .i32⟩ : BufTy).Contents (Elt F) → (⟨S8192, .i32⟩ : BufTy).Contents (Elt F)),
    StableHlo.binary main_v50 main_v46 main_v51 (addi : (⟨S8192, .i32⟩ : BufTy).Contents (Elt F) → (⟨S8192, .i32⟩ : BufTy).Contents (Elt F) → (⟨S8192, .i32⟩ : BufTy).Contents (Elt F)),
    StableHlo.nullary main_c_15 (constantI S_ 32 32768#32),
    StableHlo.TRef.unary (.of main_c_15 : StableHlo.TRef sig ⟨S_, .i32⟩) main_call4.v0 id,
    StableHlo.TRef.unary main_call4.v0 main_call4.v1 (broadcastInDim S8192 ![] bcast_S_S8192),
    StableHlo.TRef.ternary (.of main_v48 : StableHlo.TRef sig ⟨S8192, .i1⟩) (.of main_v51 : StableHlo.TRef sig ⟨S8192, .i32⟩) main_call4.v1 main_call4.v2 select,
    StableHlo.nullary main_cst (constant S_ .f32 0x00000000#32),
    StableHlo.unary main_cst main_v53 (broadcastInDim S32769x1024 ![] bcast_S_S32769x1024 : (⟨S_, .f32⟩ : BufTy).Contents (Elt F) → (⟨S32769x1024, .f32⟩ : BufTy).Contents (Elt F)),
    StableHlo.nullary main_c_16 (constantI S_ 32 0#32),
    StableHlo.unary main_c_16 main_v54 (broadcastInDim S8192 ![] bcast_S_S8192 : (⟨S_, .i32⟩ : BufTy).Contents (Elt F) → (⟨S8192, .i32⟩ : BufTy).Contents (Elt F)),
    StableHlo.binary main_v18 main_v54 main_v55 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 4096#32),
    StableHlo.unary main_c_17 main_v56 (broadcastInDim S8192 ![] bcast_S_S8192 : (⟨S_, .i32⟩ : BufTy).Contents (Elt F) → (⟨S8192, .i32⟩ : BufTy).Contents (Elt F)),
    StableHlo.binary main_v18 main_v56 main_v57 (addi : (⟨S8192, .i32⟩ : BufTy).Contents (Elt F) → (⟨S8192, .i32⟩ : BufTy).Contents (Elt F) → (⟨S8192, .i32⟩ : BufTy).Contents (Elt F)),
    StableHlo.ternary main_v55 main_v57 main_v18 main_v58 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v58 main_v59 (broadcastInDim S8192x1 ![0] bcast_S8192_S8192x1_0 : (⟨S8192, .i32⟩ : BufTy).Contents (Elt F) → (⟨S8192x1, .i32⟩ : BufTy).Contents (Elt F)),
    StableHlo.binary main_arg0 main_v59 main_v60 ((fun x i => Host.gather gather_S4096x1024_S8192x1_S8192x1024_1_0_n_n_0_1_11024 x i) : (⟨S4096x1024, .f32⟩ : BufTy).Contents (Elt F) → (⟨S8192x1, .i32⟩ : BufTy).Contents (Elt F) → (⟨S8192x1024, .f32⟩ : BufTy).Contents (Elt F)),
    StableHlo.nullary main_c_18 (constantI S_ 32 0#32),
    StableHlo.unary main_c_18 main_v61 (broadcastInDim S8192 ![] bcast_S_S8192 : (⟨S_, .i32⟩ : BufTy).Contents (Elt F) → (⟨S8192, .i32⟩ : BufTy).Contents (Elt F)),
    StableHlo.binary main_v52 main_v61 main_v62 (cmpi .slt : (⟨S8192, .i32⟩ : BufTy).Contents (Elt F) → (⟨S8192, .i32⟩ : BufTy).Contents (Elt F) → (⟨S8192, .i1⟩ : BufTy).Contents (Elt F)),
    StableHlo.nullary main_c_19 (constantI S_ 32 32769#32),
    StableHlo.unary main_c_19 main_v63 (broadcastInDim S8192 ![] bcast_S_S8192 : (⟨S_, .i32⟩ : BufTy).Contents (Elt F) → (⟨S8192, .i32⟩ : BufTy).Contents (Elt F)),
    StableHlo.binary main_v52 main_v63 main_v64 (addi : (⟨S8192, .i32⟩ : BufTy).Contents (Elt F) → (⟨S8192, .i32⟩ : BufTy).Contents (Elt F) → (⟨S8192, .i32⟩ : BufTy).Contents (Elt F)),
    StableHlo.ternary main_v62 main_v64 main_v52 main_v65 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v65 main_v66 (broadcastInDim S8192x1 ![0] bcast_S8192_S8192x1_0 : (⟨S8192, .i32⟩ : BufTy).Contents (Elt F) → (⟨S8192x1, .i32⟩ : BufTy).Contents (Elt F)),
    StableHlo.ternary main_v53 main_v66 main_v60 main_v67 ((fun x i u => Host.scatter scatter_S32769x1024_S8192x1_S8192x1024_1_0_0_1 (fun _ b => b) x i u) : (⟨S32769x1024, .f32⟩ : BufTy).Contents (Elt F) → (⟨S8192x1, .i32⟩ : BufTy).Contents (Elt F) → (⟨S8192x1024, .f32⟩ : BufTy).Contents (Elt F) → (⟨S32769x1024, .f32⟩ : BufTy).Contents (Elt F)),
    StableHlo.unary main_v67 main_v68 ((extractStridedSlice S32768x1024 ![0, 0] · slices_S32769x1024_S32768x1024_0_0) : (⟨S32769x1024, .f32⟩ : BufTy).Contents (Elt F) → (⟨S32768x1024, .f32⟩ : BufTy).Contents (Elt F)),
    StableHlo.reshape main_v68 main_v69 rfl shapeCasts_S32768x1024_S16x2048x1024,
    StableHlo.binary main_v69 main_arg3 main_v70 ((fun l r => Host.dotGeneral dot_S16x2048x1024_S16x1024x512_S16x2048x512_2_1_1_2_0_0 none l r) : (⟨S16x2048x1024, .f32⟩ : BufTy).Contents (Elt F) → (⟨S16x1024x512, .f32⟩ : BufTy).Contents (Elt F) → (⟨S16x2048x512, .f32⟩ : BufTy).Contents (Elt F)),
    StableHlo.TRef.unary (.of main_v70 : StableHlo.TRef sig ⟨S16x2048x512, .f32⟩) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S16x2048x512 ![] bcast_S_S16x2048x512),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S16x2048x512 ![] bcast_S_S16x2048x512),
    StableHlo.TRef.binary main_call5.v4 main_call5.v3 main_call5.v5 Host.divf,
    StableHlo.TRef.binary (.of main_v70 : StableHlo.TRef sig ⟨S16x2048x512, .f32⟩) main_call5.v5 main_call5.v6 mulf,
    StableHlo.binary main_v69 main_arg4 main_v72 ((fun l r => Host.dotGeneral dot_S16x2048x1024_S16x1024x512_S16x2048x512_2_1_1_2_0_0 none l r) : (⟨S16x2048x1024, .f32⟩ : BufTy).Contents (Elt F) → (⟨S16x1024x512, .f32⟩ : BufTy).Contents (Elt F) → (⟨S16x2048x512, .f32⟩ : BufTy).Contents (Elt F)),
    StableHlo.binary main_v71 main_v72 main_v73 (mulf : (⟨S16x2048x512, .f32⟩ : BufTy).Contents (Elt F) → (⟨S16x2048x512, .f32⟩ : BufTy).Contents (Elt F) → (⟨S16x2048x512, .f32⟩ : BufTy).Contents (Elt F)),
    StableHlo.binary main_v73 main_arg5 main_v74 ((fun l r => Host.dotGeneral dot_S16x2048x512_S16x512x1024_S16x2048x1024_2_1_1_2_0_0 none l r) : (⟨S16x2048x512, .f32⟩ : BufTy).Contents (Elt F) → (⟨S16x512x1024, .f32⟩ : BufTy).Contents (Elt F) → (⟨S16x2048x1024, .f32⟩ : BufTy).Contents (Elt F)),
    StableHlo.reshape main_v74 main_v75 rfl shapeCasts_S16x2048x1024_S32768x1024,
    StableHlo.nullary main_c_20 (constantI S_ 32 32767#32),
    StableHlo.unary main_c_20 main_v76 (broadcastInDim S8192 ![] bcast_S_S8192 : (⟨S_, .i32⟩ : BufTy).Contents (Elt F) → (⟨S8192, .i32⟩ : BufTy).Contents (Elt F)),
    StableHlo.binary main_v52 main_v76 main_v77 (minsi : (⟨S8192, .i32⟩ : BufTy).Contents (Elt F) → (⟨S8192, .i32⟩ : BufTy).Contents (Elt F) → (⟨S8192, .i32⟩ : BufTy).Contents (Elt F)),
    StableHlo.nullary main_c_21 (constantI S_ 32 0#32),
    StableHlo.unary main_c_21 main_v78 (broadcastInDim S8192 ![] bcast_S_S8192 : (⟨S_, .i32⟩ : BufTy).Contents (Elt F) → (⟨S8192, .i32⟩ : BufTy).Contents (Elt F)),
    StableHlo.binary main_v77 main_v78 main_v79 (cmpi .slt : (⟨S8192, .i32⟩ : BufTy).Contents (Elt F) → (⟨S8192, .i32⟩ : BufTy).Contents (Elt F) → (⟨S8192, .i1⟩ : BufTy).Contents (Elt F)),
    StableHlo.nullary main_c_22 (constantI S_ 32 32768#32),
    StableHlo.unary main_c_22 main_v80 (broadcastInDim S8192 ![] bcast_S_S8192 : (⟨S_, .i32⟩ : BufTy).Contents (Elt F) → (⟨S8192, .i32⟩ : BufTy).Contents (Elt F)),
    StableHlo.binary main_v77 main_v80 main_v81 (addi : (⟨S8192, .i32⟩ : BufTy).Contents (Elt F) → (⟨S8192, .i32⟩ : BufTy).Contents (Elt F) → (⟨S8192, .i32⟩ : BufTy).Contents (Elt F)),
    StableHlo.ternary main_v79 main_v81 main_v77 main_v82 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v82 main_v83 (broadcastInDim S8192x1 ![0] bcast_S8192_S8192x1_0 : (⟨S8192, .i32⟩ : BufTy).Contents (Elt F) → (⟨S8192x1, .i32⟩ : BufTy).Contents (Elt F)),
    StableHlo.binary main_v75 main_v83 main_v84 ((fun x i => Host.gather gather_S32768x1024_S8192x1_S8192x1024_1_0_n_n_0_1_11024 x i) : (⟨S32768x1024, .f32⟩ : BufTy).Contents (Elt F) → (⟨S8192x1, .i32⟩ : BufTy).Contents (Elt F) → (⟨S8192x1024, .f32⟩ : BufTy).Contents (Elt F)),
    StableHlo.unary main_v48 main_v85 (uitofp .f32 : (⟨S8192, .i1⟩ : BufTy).Contents (Elt F) → (⟨S8192, .f32⟩ : BufTy).Contents (Elt F)),
    StableHlo.binary main_v25 main_v85 main_v86 (mulf : (⟨S8192, .f32⟩ : BufTy).Contents (Elt F) → (⟨S8192, .f32⟩ : BufTy).Contents (Elt F) → (⟨S8192, .f32⟩ : BufTy).Contents (Elt F)),
    StableHlo.unary main_v86 main_v87 (broadcastInDim S8192x1 ![0] bcast_S8192_S8192x1_0 : (⟨S8192, .f32⟩ : BufTy).Contents (Elt F) → (⟨S8192x1, .f32⟩ : BufTy).Contents (Elt F)),
    StableHlo.unary main_v87 main_v88 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v84 main_v88 main_v89 (mulf : (⟨S8192x1024, .f32⟩ : BufTy).Contents (Elt F) → (⟨S8192x1024, .f32⟩ : BufTy).Contents (Elt F) → (⟨S8192x1024, .f32⟩ : BufTy).Contents (Elt F)),
    StableHlo.nullary main_cst_23 (constant S_ .f32 0x00000000#32),
    StableHlo.unary main_cst_23 main_v90 (broadcastInDim S4096x1024 ![] bcast_S_S4096x1024 : (⟨S_, .f32⟩ : BufTy).Contents (Elt F) → (⟨S4096x1024, .f32⟩ : BufTy).Contents (Elt F)),
    StableHlo.nullary main_c_24 (constantI S_ 32 0#32),
    StableHlo.unary main_c_24 main_v91 (broadcastInDim S8192 ![] bcast_S_S8192 : (⟨S_, .i32⟩ : BufTy).Contents (Elt F) → (⟨S8192, .i32⟩ : BufTy).Contents (Elt F)),
    StableHlo.binary main_v18 main_v91 main_v92 (cmpi .slt : (⟨S8192, .i32⟩ : BufTy).Contents (Elt F) → (⟨S8192, .i32⟩ : BufTy).Contents (Elt F) → (⟨S8192, .i1⟩ : BufTy).Contents (Elt F)),
    StableHlo.nullary main_c_25 (constantI S_ 32 4096#32),
    StableHlo.unary main_c_25 main_v93 (broadcastInDim S8192 ![] bcast_S_S8192 : (⟨S_, .i32⟩ : BufTy).Contents (Elt F) → (⟨S8192, .i32⟩ : BufTy).Contents (Elt F)),
    StableHlo.binary main_v18 main_v93 main_v94 (addi : (⟨S8192, .i32⟩ : BufTy).Contents (Elt F) → (⟨S8192, .i32⟩ : BufTy).Contents (Elt F) → (⟨S8192, .i32⟩ : BufTy).Contents (Elt F)),
    StableHlo.ternary main_v92 main_v94 main_v18 main_v95 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v95 main_v96 (broadcastInDim S8192x1 ![0] bcast_S8192_S8192x1_0 : (⟨S8192, .i32⟩ : BufTy).Contents (Elt F) → (⟨S8192x1, .i32⟩ : BufTy).Contents (Elt F)),
    StableHlo.ternary main_v90 main_v96 main_v89 main_v97 ((fun x i u => Host.scatterAdd scatter_S4096x1024_S8192x1_S8192x1024_1_0_0_1 x i u) : (⟨S4096x1024, .f32⟩ : BufTy).Contents (Elt F) → (⟨S8192x1, .i32⟩ : BufTy).Contents (Elt F) → (⟨S8192x1024, .f32⟩ : BufTy).Contents (Elt F) → (⟨S4096x1024, .f32⟩ : BufTy).Contents (Elt F)) ]
theorem ops_sub : (ops : List (HloOp τ sig (Elt F))).Forall fun op => op.bufs ⊆ StableHlo.tcRefs τ sig :=
  ⟨StableHlo.reshape_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

/-- The routing: the first 94 operations. -/
abbrev pre : List (HloOp τ sig (Elt F)) :=
  [ StableHlo.reshape main_arg1 main_v0 rfl shapeCasts_S4096x2_S8192,
    StableHlo.reshape main_arg2 main_v1 rfl shapeCasts_S4096x2_S8192,
    StableHlo.nullary main_v2 (iotaInDim S8192 32 0),
    StableHlo.nullary main_c (constantI S_ 32 2#32),
    StableHlo.TRef.unary (.of main_c : StableHlo.TRef sig ⟨S_, .i32⟩) main_call0.v0 id,
    StableHlo.TRef.unary main_call0.v0 main_call0.v1 (broadcastInDim S8192 ![] bcast_S_S8192),
    StableHlo.TRef.binary (.of main_v2 : StableHlo.TRef sig ⟨S8192, .i32⟩) main_call0.v1 main_call0.v2 Host.divsi,
    StableHlo.TRef.unary (.of main_v2 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (.of main_v2 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.TRef.nullary main_call1.v0 (iotaInDim S8192 32 0),
    StableHlo.TRef.binary (.of main_v0 : StableHlo.TRef sig ⟨S8192, .i32⟩) main_call1.v0 main_call1.v1_0 (fun x y => (Host.sort2 S8192 0 comparator_i32_i32_d0 x y).1),
    StableHlo.TRef.binary (.of main_v0 : StableHlo.TRef sig ⟨S8192, .i32⟩) main_call1.v0 main_call1.v1_1 (fun x y => (Host.sort2 S8192 0 comparator_i32_i32_d0 x y).2),
    StableHlo.nullary main_c_0 (constantI S_ 32 0#32),
    StableHlo.unary main_c_0 main_v5 (broadcastInDim S8192 ![] bcast_S_S8192 : (⟨S_, .i32⟩ : BufTy).Contents (Elt F) → (⟨S8192, .i32⟩ : BufTy).Contents (Elt F)),
    StableHlo.binary main_v4 main_v5 main_v6 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 8192#32),
    StableHlo.unary main_c_1 main_v7 (broadcastInDim S8192 ![] bcast_S_S8192 : (⟨S_, .i32⟩ : BufTy).Contents (Elt F) → (⟨S8192, .i32⟩ : BufTy).Contents (Elt F)),
    StableHlo.binary main_v4 main_v7 main_v8 (addi : (⟨S8192, .i32⟩ : BufTy).Contents (Elt F) → (⟨S8192, .i32⟩ : BufTy).Contents (Elt F) → (⟨S8192, .i32⟩ : BufTy).Contents (Elt F)),
    StableHlo.ternary main_v6 main_v8 main_v4 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v9 main_v10 (broadcastInDim S8192x1 ![0] bcast_S8192_S8192x1_0 : (⟨S8192, .i32⟩ : BufTy).Contents (Elt F) → (⟨S8192x1, .i32⟩ : BufTy).Contents (Elt F)),
    StableHlo.binary main_v0 main_v10 main_v11 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_2 (constantI S_ 32 0#32),
    StableHlo.unary main_c_2 main_v12 (broadcastInDim S8192 ![] bcast_S_S8192 : (⟨S_, .i32⟩ : BufTy).Contents (Elt F) → (⟨S8192, .i32⟩ : BufTy).Contents (Elt F)),
    StableHlo.binary main_v4 main_v12 main_v13 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v14 (broadcastInDim S8192 ![] bcast_S_S8192 : (⟨S_, .i32⟩ : BufTy).Contents (Elt F) → (⟨S8192, .i32⟩ : BufTy).Contents (Elt F)),
    StableHlo.binary main_v4 main_v14 main_v15 (addi : (⟨S8192, .i32⟩ : BufTy).Contents (Elt F) → (⟨S8192, .i32⟩ : BufTy).Contents (Elt F) → (⟨S8192, .i32⟩ : BufTy).Contents (Elt F)),
    StableHlo.ternary main_v13 main_v15 main_v4 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v16 main_v17 (broadcastInDim S8192x1 ![0] bcast_S8192_S8192x1_0 : (⟨S8192, .i32⟩ : BufTy).Contents (Elt F) → (⟨S8192x1, .i32⟩ : BufTy).Contents (Elt F)),
    StableHlo.binary main_v3 main_v17 main_v18 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_4 (constantI S_ 32 0#32),
    StableHlo.unary main_c_4 main_v19 (broadcastInDim S8192 ![] bcast_S_S8192 : (⟨S_, .i32⟩ : BufTy).Contents (Elt F) → (⟨S8192, .i32⟩ : BufTy).Contents (Elt F)),
    StableHlo.binary main_v4 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v21 (broadcastInDim S8192 ![] bcast_S_S8192 : (⟨S_, .i32⟩ : BufTy).Contents (Elt F) → (⟨S8192, .i32⟩ : BufTy).Contents (Elt F)),
    StableHlo.binary main_v4 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v4 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v24 (broadcastInDim S8192x1 ![0] bcast_S8192_S8192x1_0 : (⟨S8192, .i32⟩ : BufTy).Contents (Elt F) → (⟨S8192x1, .i32⟩ : BufTy).Contents (Elt F)),
    StableHlo.binary main_v1 main_v24 main_v25 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    StableHlo.nullary main_c_6 (constantI S_ 32 0#32),
    StableHlo.unary main_c_6 main_v26 (broadcastInDim S16 ![] bcast_S_S16 : (⟨S_, .i32⟩ : BufTy).Contents (Elt F) → (⟨S16, .i32⟩ : BufTy).Contents (Elt F)),
    StableHlo.nullary main_c_7 (constantI S_ 32 0#32),
    StableHlo.TRef.unary (.of main_c_7 : StableHlo.TRef sig ⟨S_, .i32⟩) main_call2.v0 id,
    StableHlo.TRef.unary main_call2.v0 main_call2.v1 (broadcastInDim S8192 ![] bcast_S_S8192),
    StableHlo.TRef.binary main_call2.v1 (.of main_v0 : StableHlo.TRef sig ⟨S8192, .i32⟩) main_call2.v2 maxsi,
    StableHlo.nullary main_c_8 (constantI S_ 32 0#32),
    StableHlo.unary main_c_8 main_v28 (broadcastInDim S8192 ![] bcast_S_S8192 : (⟨S_, .i32⟩ : BufTy).Contents (Elt F) → (⟨S8192, .i32⟩ : BufTy).Contents (Elt F)),
    StableHlo.binary main_v27 main_v28 main_v29 (cmpi .slt : (⟨S8192, .i32⟩ : BufTy).Contents (Elt F) → (⟨S8192, .i32⟩ : BufTy).Contents (Elt F) → (⟨S8192, .i1⟩ : BufTy).Contents (Elt F)),
    StableHlo.nullary main_c_9 (constantI S_ 32 16#32),
    StableHlo.unary main_c_9 main_v30 (broadcastInDim S8192 ![] bcast_S_S8192 : (⟨S_, .i32⟩ : BufTy).Contents (Elt F) → (⟨S8192, .i32⟩ : BufTy).Contents (Elt F)),
    StableHlo.binary main_v27 main_v30 main_v31 (addi : (⟨S8192, .i32⟩ : BufTy).Contents (Elt F) → (⟨S8192, .i32⟩ : BufTy).Contents (Elt F) → (⟨S8192, .i32⟩ : BufTy).Contents (Elt F)),
    StableHlo.ternary main_v29 main_v31 main_v27 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v32 main_v33 (broadcastInDim S8192x1 ![0] bcast_S8192_S8192x1_0 : (⟨S8192, .i32⟩ : BufTy).Contents (Elt F) → (⟨S8192x1, .i32⟩ : BufTy).Contents (Elt F)),
    StableHlo.nullary main_c_10 (constantI S_ 32 1#32),
    StableHlo.unary main_c_10 main_v34 (broadcastInDim S8192 ![] bcast_S_S8192 : (⟨S_, .i32⟩ : BufTy).Contents (Elt F) → (⟨S8192, .i32⟩ : BufTy).Contents (Elt F)),
    StableHlo.ternary main_v26 main_v33 main_v34 main_v35 ((fun x i u => Host.scatter scatter_S16_S8192x1_S8192_n_0_0_1 IntOp.addi x i u) : (⟨S16, .i32⟩ : BufTy).Contents (Elt F) → (⟨S8192x1, .i32⟩ : BufTy).Contents (Elt F) → (⟨S8192, .i32⟩ : BufTy).Contents (Elt F) → (⟨S16, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v35 : StableHlo.TRef sig ⟨S16, .i32⟩) main_call3.call0.v0 main_call3.call0.v1 (fun x v => Host.reduceWindow IntOp.addi ![16] ![1] ![15] ![0] x v reduceWindows_S16_S16_w16s1p15_0 h_S_),
    StableHlo.binary main_v36 main_v35 main_v37 (subi : (⟨S16, .i32⟩ : BufTy).Contents (Elt F) → (⟨S16, .i32⟩ : BufTy).Contents (Elt F) → (⟨S16, .i32⟩ : BufTy).Contents (Elt F)),
    StableHlo.nullary main_v38 (iotaInDim S8192 32 0),
    StableHlo.nullary main_c_11 (constantI S_ 32 0#32),
    StableHlo.unary main_c_11 main_v39 (broadcastInDim S8192 ![] bcast_S_S8192 : (⟨S_, .i32⟩ : BufTy).Contents (Elt F) → (⟨S8192, .i32⟩ : BufTy).Contents (Elt F)),
    StableHlo.binary main_v11 main_v39 main_v40 (cmpi .slt : (⟨S8192, .i32⟩ : BufTy).Contents (Elt F) → (⟨S8192, .i32⟩ : BufTy).Contents (Elt F) → (⟨S8192, .i1⟩ : BufTy).Contents (Elt F)),
    StableHlo.nullary main_c_12 (constantI S_ 32 16#32),
    StableHlo.unary main_c_12 main_v41 (broadcastInDim S8192 ![] bcast_S_S8192 : (⟨S_, .i32⟩ : BufTy).Contents (Elt F) → (⟨S8192, .i32⟩ : BufTy).Contents (Elt F)),
    StableHlo.binary main_v11 main_v41 main_v42 (addi : (⟨S8192, .i32⟩ : BufTy).Contents (Elt F) → (⟨S8192, .i32⟩ : BufTy).Contents (Elt F) → (⟨S8192, .i32⟩ : BufTy).Contents (Elt F)),
    StableHlo.ternary main_v40 main_v42 main_v11 main_v43 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v43 main_v44 (broadcastInDim S8192x1 ![0] bcast_S8192_S8192x1_0 : (⟨S8192, .i32⟩ : BufTy).Contents (Elt F) → (⟨S8192x1, .i32⟩ : BufTy).Contents (Elt F)),
    StableHlo.binary main_v37 main_v44 main_v45 ((fun x i => Host.gather gather_S16_S8192x1_S8192_n_0_n_n_0_1_1 x i) : (⟨S16, .i32⟩ : BufTy).Contents (Elt F) → (⟨S8192x1, .i32⟩ : BufTy).Contents (Elt F) → (⟨S8192, .i32⟩ : BufTy).Contents (Elt F)),
    StableHlo.binary main_v38 main_v45 main_v46 (subi : (⟨S8192, .i32⟩ : BufTy).Contents (Elt F) → (⟨S8192, .i32⟩ : BufTy).Contents (Elt F) → (⟨S8192, .i32⟩ : BufTy).Contents (Elt F)),
    StableHlo.nullary main_c_13 (constantI S_ 32 2048#32),
    StableHlo.unary main_c_13 main_v47 (broadcastInDim S8192 ![] bcast_S_S8192 : (⟨S_, .i32⟩ : BufTy).Contents (Elt F) → (⟨S8192, .i32⟩ : BufTy).Contents (Elt F)),
    StableHlo.binary main_v46 main_v47 main_v48 (cmpi .slt : (⟨S8192, .i32⟩ : BufTy).Contents (Elt F) → (⟨S8192, .i32⟩ : BufTy).Contents (Elt F) → (⟨S8192, .i1⟩ : BufTy).Contents (Elt F)),
    StableHlo.nullary main_c_14 (constantI S_ 32 2048#32),
    StableHlo.unary main_c_14 main_v49 (broadcastInDim S8192 ![] bcast_S_S8192 : (⟨S_, .i32⟩ : BufTy).Contents (Elt F) → (⟨S8192, .i32⟩ : BufTy).Contents (Elt F)),
    StableHlo.binary main_v11 main_v49 main_v50 (muli : (⟨S8192, .i32⟩ : BufTy).Contents (Elt F) → (⟨S8192, .i32⟩ : BufTy).Contents (Elt F) → (⟨S8192, .i32⟩ : BufTy).Contents (Elt F)),
    StableHlo.binary main_v50 main_v46 main_v51 (addi : (⟨S8192, .i32⟩ : BufTy).Contents (Elt F) → (⟨S8192, .i32⟩ : BufTy).Contents (Elt F) → (⟨S8192, .i32⟩ : BufTy).Contents (Elt F)),
    StableHlo.nullary main_c_15 (constantI S_ 32 32768#32),
    StableHlo.TRef.unary (.of main_c_15 : StableHlo.TRef sig ⟨S_, .i32⟩) main_call4.v0 id,
    StableHlo.TRef.unary main_call4.v0 main_call4.v1 (broadcastInDim S8192 ![] bcast_S_S8192),
    StableHlo.TRef.ternary (.of main_v48 : StableHlo.TRef sig ⟨S8192, .i1⟩) (.of main_v51 : StableHlo.TRef sig ⟨S8192, .i32⟩) main_call4.v1 main_call4.v2 select ]

/-- The dispatch into per-expert rows: the next 22 operations. -/
abbrev midA : List (HloOp τ sig (Elt F)) :=
  [ StableHlo.nullary main_cst (constant S_ .f32 0x00000000#32),
    StableHlo.unary main_cst main_v53 (broadcastInDim S32769x1024 ![] bcast_S_S32769x1024 : (⟨S_, .f32⟩ : BufTy).Contents (Elt F) → (⟨S32769x1024, .f32⟩ : BufTy).Contents (Elt F)),
    StableHlo.nullary main_c_16 (constantI S_ 32 0#32),
    StableHlo.unary main_c_16 main_v54 (broadcastInDim S8192 ![] bcast_S_S8192 : (⟨S_, .i32⟩ : BufTy).Contents (Elt F) → (⟨S8192, .i32⟩ : BufTy).Contents (Elt F)),
    StableHlo.binary main_v18 main_v54 main_v55 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 4096#32),
    StableHlo.unary main_c_17 main_v56 (broadcastInDim S8192 ![] bcast_S_S8192 : (⟨S_, .i32⟩ : BufTy).Contents (Elt F) → (⟨S8192, .i32⟩ : BufTy).Contents (Elt F)),
    StableHlo.binary main_v18 main_v56 main_v57 (addi : (⟨S8192, .i32⟩ : BufTy).Contents (Elt F) → (⟨S8192, .i32⟩ : BufTy).Contents (Elt F) → (⟨S8192, .i32⟩ : BufTy).Contents (Elt F)),
    StableHlo.ternary main_v55 main_v57 main_v18 main_v58 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v58 main_v59 (broadcastInDim S8192x1 ![0] bcast_S8192_S8192x1_0 : (⟨S8192, .i32⟩ : BufTy).Contents (Elt F) → (⟨S8192x1, .i32⟩ : BufTy).Contents (Elt F)),
    StableHlo.binary main_arg0 main_v59 main_v60 ((fun x i => Host.gather gather_S4096x1024_S8192x1_S8192x1024_1_0_n_n_0_1_11024 x i) : (⟨S4096x1024, .f32⟩ : BufTy).Contents (Elt F) → (⟨S8192x1, .i32⟩ : BufTy).Contents (Elt F) → (⟨S8192x1024, .f32⟩ : BufTy).Contents (Elt F)),
    StableHlo.nullary main_c_18 (constantI S_ 32 0#32),
    StableHlo.unary main_c_18 main_v61 (broadcastInDim S8192 ![] bcast_S_S8192 : (⟨S_, .i32⟩ : BufTy).Contents (Elt F) → (⟨S8192, .i32⟩ : BufTy).Contents (Elt F)),
    StableHlo.binary main_v52 main_v61 main_v62 (cmpi .slt : (⟨S8192, .i32⟩ : BufTy).Contents (Elt F) → (⟨S8192, .i32⟩ : BufTy).Contents (Elt F) → (⟨S8192, .i1⟩ : BufTy).Contents (Elt F)),
    StableHlo.nullary main_c_19 (constantI S_ 32 32769#32),
    StableHlo.unary main_c_19 main_v63 (broadcastInDim S8192 ![] bcast_S_S8192 : (⟨S_, .i32⟩ : BufTy).Contents (Elt F) → (⟨S8192, .i32⟩ : BufTy).Contents (Elt F)),
    StableHlo.binary main_v52 main_v63 main_v64 (addi : (⟨S8192, .i32⟩ : BufTy).Contents (Elt F) → (⟨S8192, .i32⟩ : BufTy).Contents (Elt F) → (⟨S8192, .i32⟩ : BufTy).Contents (Elt F)),
    StableHlo.ternary main_v62 main_v64 main_v52 main_v65 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v65 main_v66 (broadcastInDim S8192x1 ![0] bcast_S8192_S8192x1_0 : (⟨S8192, .i32⟩ : BufTy).Contents (Elt F) → (⟨S8192x1, .i32⟩ : BufTy).Contents (Elt F)),
    StableHlo.ternary main_v53 main_v66 main_v60 main_v67 ((fun x i u => Host.scatter scatter_S32769x1024_S8192x1_S8192x1024_1_0_0_1 (fun _ b => b) x i u) : (⟨S32769x1024, .f32⟩ : BufTy).Contents (Elt F) → (⟨S8192x1, .i32⟩ : BufTy).Contents (Elt F) → (⟨S8192x1024, .f32⟩ : BufTy).Contents (Elt F) → (⟨S32769x1024, .f32⟩ : BufTy).Contents (Elt F)),
    StableHlo.unary main_v67 main_v68 ((extractStridedSlice S32768x1024 ![0, 0] · slices_S32769x1024_S32768x1024_0_0) : (⟨S32769x1024, .f32⟩ : BufTy).Contents (Elt F) → (⟨S32768x1024, .f32⟩ : BufTy).Contents (Elt F)),
    StableHlo.reshape main_v68 main_v69 rfl shapeCasts_S32768x1024_S16x2048x1024 ]

/-- The three batched contractions around the gated activation: the next 13 operations. -/
abbrev midB : List (HloOp τ sig (Elt F)) :=
  [ StableHlo.binary main_v69 main_arg3 main_v70 ((fun l r => Host.dotGeneral dot_S16x2048x1024_S16x1024x512_S16x2048x512_2_1_1_2_0_0 none l r) : (⟨S16x2048x1024, .f32⟩ : BufTy).Contents (Elt F) → (⟨S16x1024x512, .f32⟩ : BufTy).Contents (Elt F) → (⟨S16x2048x512, .f32⟩ : BufTy).Contents (Elt F)),
    StableHlo.TRef.unary (.of main_v70 : StableHlo.TRef sig ⟨S16x2048x512, .f32⟩) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S16x2048x512 ![] bcast_S_S16x2048x512),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S16x2048x512 ![] bcast_S_S16x2048x512),
    StableHlo.TRef.binary main_call5.v4 main_call5.v3 main_call5.v5 Host.divf,
    StableHlo.TRef.binary (.of main_v70 : StableHlo.TRef sig ⟨S16x2048x512, .f32⟩) main_call5.v5 main_call5.v6 mulf,
    StableHlo.binary main_v69 main_arg4 main_v72 ((fun l r => Host.dotGeneral dot_S16x2048x1024_S16x1024x512_S16x2048x512_2_1_1_2_0_0 none l r) : (⟨S16x2048x1024, .f32⟩ : BufTy).Contents (Elt F) → (⟨S16x1024x512, .f32⟩ : BufTy).Contents (Elt F) → (⟨S16x2048x512, .f32⟩ : BufTy).Contents (Elt F)),
    StableHlo.binary main_v71 main_v72 main_v73 (mulf : (⟨S16x2048x512, .f32⟩ : BufTy).Contents (Elt F) → (⟨S16x2048x512, .f32⟩ : BufTy).Contents (Elt F) → (⟨S16x2048x512, .f32⟩ : BufTy).Contents (Elt F)),
    StableHlo.binary main_v73 main_arg5 main_v74 ((fun l r => Host.dotGeneral dot_S16x2048x512_S16x512x1024_S16x2048x1024_2_1_1_2_0_0 none l r) : (⟨S16x2048x512, .f32⟩ : BufTy).Contents (Elt F) → (⟨S16x512x1024, .f32⟩ : BufTy).Contents (Elt F) → (⟨S16x2048x1024, .f32⟩ : BufTy).Contents (Elt F)) ]

/-- The combine: the last 29 operations. -/
abbrev tail : List (HloOp τ sig (Elt F)) :=
  [ StableHlo.reshape main_v74 main_v75 rfl shapeCasts_S16x2048x1024_S32768x1024,
    StableHlo.nullary main_c_20 (constantI S_ 32 32767#32),
    StableHlo.unary main_c_20 main_v76 (broadcastInDim S8192 ![] bcast_S_S8192 : (⟨S_, .i32⟩ : BufTy).Contents (Elt F) → (⟨S8192, .i32⟩ : BufTy).Contents (Elt F)),
    StableHlo.binary main_v52 main_v76 main_v77 (minsi : (⟨S8192, .i32⟩ : BufTy).Contents (Elt F) → (⟨S8192, .i32⟩ : BufTy).Contents (Elt F) → (⟨S8192, .i32⟩ : BufTy).Contents (Elt F)),
    StableHlo.nullary main_c_21 (constantI S_ 32 0#32),
    StableHlo.unary main_c_21 main_v78 (broadcastInDim S8192 ![] bcast_S_S8192 : (⟨S_, .i32⟩ : BufTy).Contents (Elt F) → (⟨S8192, .i32⟩ : BufTy).Contents (Elt F)),
    StableHlo.binary main_v77 main_v78 main_v79 (cmpi .slt : (⟨S8192, .i32⟩ : BufTy).Contents (Elt F) → (⟨S8192, .i32⟩ : BufTy).Contents (Elt F) → (⟨S8192, .i1⟩ : BufTy).Contents (Elt F)),
    StableHlo.nullary main_c_22 (constantI S_ 32 32768#32),
    StableHlo.unary main_c_22 main_v80 (broadcastInDim S8192 ![] bcast_S_S8192 : (⟨S_, .i32⟩ : BufTy).Contents (Elt F) → (⟨S8192, .i32⟩ : BufTy).Contents (Elt F)),
    StableHlo.binary main_v77 main_v80 main_v81 (addi : (⟨S8192, .i32⟩ : BufTy).Contents (Elt F) → (⟨S8192, .i32⟩ : BufTy).Contents (Elt F) → (⟨S8192, .i32⟩ : BufTy).Contents (Elt F)),
    StableHlo.ternary main_v79 main_v81 main_v77 main_v82 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v82 main_v83 (broadcastInDim S8192x1 ![0] bcast_S8192_S8192x1_0 : (⟨S8192, .i32⟩ : BufTy).Contents (Elt F) → (⟨S8192x1, .i32⟩ : BufTy).Contents (Elt F)),
    StableHlo.binary main_v75 main_v83 main_v84 ((fun x i => Host.gather gather_S32768x1024_S8192x1_S8192x1024_1_0_n_n_0_1_11024 x i) : (⟨S32768x1024, .f32⟩ : BufTy).Contents (Elt F) → (⟨S8192x1, .i32⟩ : BufTy).Contents (Elt F) → (⟨S8192x1024, .f32⟩ : BufTy).Contents (Elt F)),
    StableHlo.unary main_v48 main_v85 (uitofp .f32 : (⟨S8192, .i1⟩ : BufTy).Contents (Elt F) → (⟨S8192, .f32⟩ : BufTy).Contents (Elt F)),
    StableHlo.binary main_v25 main_v85 main_v86 (mulf : (⟨S8192, .f32⟩ : BufTy).Contents (Elt F) → (⟨S8192, .f32⟩ : BufTy).Contents (Elt F) → (⟨S8192, .f32⟩ : BufTy).Contents (Elt F)),
    StableHlo.unary main_v86 main_v87 (broadcastInDim S8192x1 ![0] bcast_S8192_S8192x1_0 : (⟨S8192, .f32⟩ : BufTy).Contents (Elt F) → (⟨S8192x1, .f32⟩ : BufTy).Contents (Elt F)),
    StableHlo.unary main_v87 main_v88 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v84 main_v88 main_v89 (mulf : (⟨S8192x1024, .f32⟩ : BufTy).Contents (Elt F) → (⟨S8192x1024, .f32⟩ : BufTy).Contents (Elt F) → (⟨S8192x1024, .f32⟩ : BufTy).Contents (Elt F)),
    StableHlo.nullary main_cst_23 (constant S_ .f32 0x00000000#32),
    StableHlo.unary main_cst_23 main_v90 (broadcastInDim S4096x1024 ![] bcast_S_S4096x1024 : (⟨S_, .f32⟩ : BufTy).Contents (Elt F) → (⟨S4096x1024, .f32⟩ : BufTy).Contents (Elt F)),
    StableHlo.nullary main_c_24 (constantI S_ 32 0#32),
    StableHlo.unary main_c_24 main_v91 (broadcastInDim S8192 ![] bcast_S_S8192 : (⟨S_, .i32⟩ : BufTy).Contents (Elt F) → (⟨S8192, .i32⟩ : BufTy).Contents (Elt F)),
    StableHlo.binary main_v18 main_v91 main_v92 (cmpi .slt : (⟨S8192, .i32⟩ : BufTy).Contents (Elt F) → (⟨S8192, .i32⟩ : BufTy).Contents (Elt F) → (⟨S8192, .i1⟩ : BufTy).Contents (Elt F)),
    StableHlo.nullary main_c_25 (constantI S_ 32 4096#32),
    StableHlo.unary main_c_25 main_v93 (broadcastInDim S8192 ![] bcast_S_S8192 : (⟨S_, .i32⟩ : BufTy).Contents (Elt F) → (⟨S8192, .i32⟩ : BufTy).Contents (Elt F)),
    StableHlo.binary main_v18 main_v93 main_v94 (addi : (⟨S8192, .i32⟩ : BufTy).Contents (Elt F) → (⟨S8192, .i32⟩ : BufTy).Contents (Elt F) → (⟨S8192, .i32⟩ : BufTy).Contents (Elt F)),
    StableHlo.ternary main_v92 main_v94 main_v18 main_v95 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v95 main_v96 (broadcastInDim S8192x1 ![0] bcast_S8192_S8192x1_0 : (⟨S8192, .i32⟩ : BufTy).Contents (Elt F) → (⟨S8192x1, .i32⟩ : BufTy).Contents (Elt F)),
    StableHlo.ternary main_v90 main_v96 main_v89 main_v97 ((fun x i u => Host.scatterAdd scatter_S4096x1024_S8192x1_S8192x1024_1_0_0_1 x i u) : (⟨S4096x1024, .f32⟩ : BufTy).Contents (Elt F) → (⟨S8192x1, .i32⟩ : BufTy).Contents (Elt F) → (⟨S8192x1024, .f32⟩ : BufTy).Contents (Elt F) → (⟨S4096x1024, .f32⟩ : BufTy).Contents (Elt F)) ]

/-- The list is its four stretches, one after the other. -/
theorem ops_split : (ops : List (HloOp τ sig (Elt F))) = pre ++ (midA ++ (midB ++ tail)) := rfl

end Cert.ReferenceIdeal.Run

end
-- ==== Proof.RefRun.lean ====
/-
  The reference program is a straight line of host operations (a module-local function's body standing at its
  call), so every weakly fair execution of it terminates, and each buffer ends at the fold of the operations over
  the launch contents.  The argument arrays are written by no operation: they end as launched.
-/
import proofs.«111815_j24352464569736_1_alg».proof.Proof.RefOps
import Idealize.ShloMosaic.Lib.Pipeline.Regions

noncomputable section

namespace Cert.ReferenceIdeal.Run

open Cert.ReferenceIdeal Idealize.ShloMosaic Idealize.ShloMosaic.TcCoe Idealize.SL.Sem Idealize.ShloMosaic.StableHlo

variable {F : FTy → Type} [FloatOps F]

/-- @main is that straight line: the functions' definitions unfolded at their calls and sequencing reassociated,
    both sides are one chain of the same steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.BridgeDefs.lean ====
/-
  The two programs side by side.  The kernel program's host operations before its region are the routing (the same
  94 operations as the reference's) followed by 26 that dispatch the tokens into per-expert rows and narrow the weights;
  a narrowing is the identity on the extended reals.  Here: those two stretches by name, the buffers at the region's
  entry as their fold, and the tactic that reads a fold of literal operations at one buffer.
-/
import proofs.«111815_j24352464569736_1_alg».proof.Proof.Gen.KernelIdeal.Frame
import proofs.«111815_j24352464569736_1_alg».proof.Proof.RefOps
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- A valuation of the kernel program's buffers, and one of the reference's. -/
abbrev ValK := Valuation Cert.KernelIdeal.τ Cert.KernelIdeal.sig (Elt Ideal)
abbrev ValR := Valuation Cert.ReferenceIdeal.τ Cert.ReferenceIdeal.sig (Elt Ideal)

/-- The kernel program's routing stretch. -/
abbrev preK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, Cert.KernelIdeal.Gen.hostOps0_8]

/-- Its dispatch stretch: the tokens into per-expert rows, the weights narrowed. -/
abbrev midK : List (HloOp Cert.KernelIdeal.τ Cert.KernelIdeal.sig (Elt Ideal)) := Cert.KernelIdeal.Gen.hostOps0_9

/-- Its combine stretch, after the region. -/
abbrev tailK : List (HloOp Cert.KernelIdeal.τ Cert.KernelIdeal.sig (Elt Ideal)) := Cert.KernelIdeal.Gen.hostOps1

/-- The buffers at the region's entry are the dispatch stretch's fold over the routing stretch's. -/
theorem V0_eq (m : (ℓ : Loc Cert.KernelIdeal.nD Cert.KernelIdeal.τ Cert.KernelIdeal.sig) → Buf (Elt Ideal) ℓ)
    (c : Dev Cert.KernelIdeal.nD) :
    Cert.KernelIdeal.Gen.V0 m c = after midK (after preK (launchContents m c)) := by
  show after _ _ = _
  rw [← StableHlo.after_append]
  congr 1

/-- Reads a fold of literal operations at one buffer: the stretches opened to their lists, then each operation's
    result at its own buffer its function's value, at any other buffer what was there. -/
macro "fold_at" : tactic =>
  `(tactic| (simp only [preK, midK, tailK, Cert.KernelIdeal.Gen.hostOps0, Cert.KernelIdeal.Gen.hostOps0_1,
      Cert.KernelIdeal.Gen.hostOps0_2, Cert.KernelIdeal.Gen.hostOps0_3, Cert.KernelIdeal.Gen.hostOps0_4,
      Cert.KernelIdeal.Gen.hostOps0_5, Cert.KernelIdeal.Gen.hostOps0_6, Cert.KernelIdeal.Gen.hostOps0_7,
      Cert.KernelIdeal.Gen.hostOps0_8, Cert.KernelIdeal.Gen.hostOps0_9, Cert.KernelIdeal.Gen.hostOps1,
      List.flatten_cons, List.flatten_nil, List.append_nil, List.cons_append, List.nil_append,
      Cert.ReferenceIdeal.Run.pre, Cert.ReferenceIdeal.Run.midA, Cert.ReferenceIdeal.Run.midB, Cert.ReferenceIdeal.Run.tail]
             after_results_simp))

end Cert.Bridge

end
-- ==== Proof.RefArgs.lean ====
/-
  No operation of the reference program writes an argument array: each ends as launched.
-/
import proofs.«111815_j24352464569736_1_alg».proof.Proof.BridgeDefs

set_option maxRecDepth 16384

noncomputable section

namespace Cert.Bridge

open Idealize.ShloMosaic Idealize.ShloMosaic.TcCoe Idealize.SL.Sem Idealize.ShloMosaic.StableHlo

theorem ops_arg0 (LR : ValR) : after Cert.ReferenceIdeal.Run.ops LR (Proc.devRef .tc Cert.ReferenceIdeal.main_arg0) = LR (Proc.devRef .tc Cert.ReferenceIdeal.main_arg0) := by
  simp only [Cert.ReferenceIdeal.Run.ops]
  after_results_simp

theorem ops_arg1 (LR : ValR) : after Cert.ReferenceIdeal.Run.ops LR (Proc.devRef .tc Cert.ReferenceIdeal.main_arg1) = LR (Proc.devRef .tc Cert.ReferenceIdeal.main_arg1) := by
  simp only [Cert.ReferenceIdeal.Run.ops]
  after_results_simp

theorem ops_arg2 (LR : ValR) : after Cert.ReferenceIdeal.Run.ops LR (Proc.devRef .tc Cert.ReferenceIdeal.main_arg2) = LR (Proc.devRef .tc Cert.ReferenceIdeal.main_arg2) := by
  simp only [Cert.ReferenceIdeal.Run.ops]
  after_results_simp

theorem ops_arg3 (LR : ValR) : after Cert.ReferenceIdeal.Run.ops LR (Proc.devRef .tc Cert.ReferenceIdeal.main_arg3) = LR (Proc.devRef .tc Cert.ReferenceIdeal.main_arg3) := by
  simp only [Cert.ReferenceIdeal.Run.ops]
  after_results_simp

theorem ops_arg4 (LR : ValR) : after Cert.ReferenceIdeal.Run.ops LR (Proc.devRef .tc Cert.ReferenceIdeal.main_arg4) = LR (Proc.devRef .tc Cert.ReferenceIdeal.main_arg4) := by
  simp only [Cert.ReferenceIdeal.Run.ops]
  after_results_simp

theorem ops_arg5 (LR : ValR) : after Cert.ReferenceIdeal.Run.ops LR (Proc.devRef .tc Cert.ReferenceIdeal.main_arg5) = LR (Proc.devRef .tc Cert.ReferenceIdeal.main_arg5) := by
  simp only [Cert.ReferenceIdeal.Run.ops]
  after_results_simp

end Cert.Bridge

end
-- ==== Proof.BridgeTok.lean ====
/-
  The source token of each sorted (token, expert) pair is computed alike by both programs.
-/
import proofs.«111815_j24352464569736_1_alg».proof.Proof.BridgeDefs

set_option maxRecDepth 16384

noncomputable section

namespace Cert.Bridge

open Idealize.ShloMosaic Idealize.ShloMosaic.TcCoe Idealize.SL.Sem Idealize.ShloMosaic.StableHlo

set_option maxHeartbeats 4000000 in
/-- Both routing stretches are the same operations on the same operands, so they leave the same contents here. -/
theorem routing_token (LK : ValK) (LR : ValR)
    (h1 : LR (Proc.devRef .tc Cert.ReferenceIdeal.main_arg1) = LK (Proc.devRef .tc Cert.KernelIdeal.main_arg1)) :
    after preK LK (Proc.devRef .tc Cert.KernelIdeal.main_v18) = after Cert.ReferenceIdeal.Run.pre LR (Proc.devRef .tc Cert.ReferenceIdeal.main_v18) := by
  fold_at
  rw [h1]
  rfl

end Cert.Bridge

end
-- ==== Proof.BridgeSlot.lean ====
/-
  The slot of each sorted (token, expert) pair — its expert's row block plus its rank within the expert, or the
  overflow row — is computed alike by both programs.
-/
import proofs.«111815_j24352464569736_1_alg».proof.Proof.BridgeDefs

set_option maxRecDepth 16384

noncomputable section

namespace Cert.Bridge

open Idealize.ShloMosaic Idealize.ShloMosaic.TcCoe Idealize.SL.Sem Idealize.ShloMosaic.StableHlo

set_option maxHeartbeats 4000000 in
/-- Both routing stretches are the same operations on the same operands, so they leave the same contents here. -/
theorem routing_slot (LK : ValK) (LR : ValR)
    (h1 : LR (Proc.devRef .tc Cert.ReferenceIdeal.main_arg1) = LK (Proc.devRef .tc Cert.KernelIdeal.main_arg1)) :
    after preK LK (Proc.devRef .tc Cert.KernelIdeal.main_v52) = after Cert.ReferenceIdeal.Run.pre LR (Proc.devRef .tc Cert.ReferenceIdeal.main_v52) := by
  fold_at
  rw [h1]
  rfl

end Cert.Bridge

end
-- ==== Proof.BridgeWeight.lean ====
/-
  The routing weight of each sorted (token, expert) pair is gathered alike by both programs.
-/
import proofs.«111815_j24352464569736_1_alg».proof.Proof.BridgeDefs

set_option maxRecDepth 16384

noncomputable section

namespace Cert.Bridge

open Idealize.ShloMosaic Idealize.ShloMosaic.TcCoe Idealize.SL.Sem Idealize.ShloMosaic.StableHlo

set_option maxHeartbeats 4000000 in
/-- Both routing stretches are the same operations on the same operands, so they leave the same contents here. -/
theorem routing_weight (LK : ValK) (LR : ValR)
    (h1 : LR (Proc.devRef .tc Cert.ReferenceIdeal.main_arg1) = LK (Proc.devRef .tc Cert.KernelIdeal.main_arg1))
    (h2 : LR (Proc.devRef .tc Cert.ReferenceIdeal.main_arg2) = LK (Proc.devRef .tc Cert.KernelIdeal.main_arg2)) :
    after preK LK (Proc.devRef .tc Cert.KernelIdeal.main_v25) = after Cert.ReferenceIdeal.Run.pre LR (Proc.devRef .tc Cert.ReferenceIdeal.main_v25) := by
  fold_at
  rw [h1, h2]
  rfl

end Cert.Bridge

end
-- ==== Proof.BridgeValid.lean ====
/-
  Whether each sorted (token, expert) pair fits its expert's capacity is decided alike by both programs.
-/
import proofs.«111815_j24352464569736_1_alg».proof.Proof.BridgeDefs

set_option maxRecDepth 16384

noncomputable section

namespace Cert.Bridge

open Idealize.ShloMosaic Idealize.ShloMosaic.TcCoe Idealize.SL.Sem Idealize.ShloMosaic.StableHlo

set_option maxHeartbeats 4000000 in
/-- Both routing stretches are the same operations on the same operands, so they leave the same contents here. -/
theorem routing_valid (LK : ValK) (LR : ValR)
    (h1 : LR (Proc.devRef .tc Cert.ReferenceIdeal.main_arg1) = LK (Proc.devRef .tc Cert.KernelIdeal.main_arg1)) :
    after preK LK (Proc.devRef .tc Cert.KernelIdeal.main_v48) = after Cert.ReferenceIdeal.Run.pre LR (Proc.devRef .tc Cert.ReferenceIdeal.main_v48) := by
  fold_at
  rw [h1]
  rfl

end Cert.Bridge

end
-- ==== Proof.BridgePassK.lean ====
/-
  Buffers the kernel program's stretches do not write keep their contents: the arguments through the routing
  stretch, and the routing's four results through the dispatch stretch.
-/
import proofs.«111815_j24352464569736_1_alg».proof.Proof.BridgeDefs

set_option maxRecDepth 16384

noncomputable section

namespace Cert.Bridge

open Idealize.ShloMosaic Idealize.ShloMosaic.TcCoe Idealize.SL.Sem Idealize.ShloMosaic.StableHlo

theorem preK_arg0 (LK : ValK) : after preK LK (Proc.devRef .tc Cert.KernelIdeal.main_arg0) = LK (Proc.devRef .tc Cert.KernelIdeal.main_arg0) := by
  fold_at

theorem preK_arg3 (LK : ValK) : after preK LK (Proc.devRef .tc Cert.KernelIdeal.main_arg3) = LK (Proc.devRef .tc Cert.KernelIdeal.main_arg3) := by
  fold_at

theorem preK_arg4 (LK : ValK) : after preK LK (Proc.devRef .tc Cert.KernelIdeal.main_arg4) = LK (Proc.devRef .tc Cert.KernelIdeal.main_arg4) := by
  fold_at

theorem preK_arg5 (LK : ValK) : after preK LK (Proc.devRef .tc Cert.KernelIdeal.main_arg5) = LK (Proc.devRef .tc Cert.KernelIdeal.main_arg5) := by
  fold_at

theorem midK_v18 (YK : ValK) : after midK YK (Proc.devRef .tc Cert.KernelIdeal.main_v18) = YK (Proc.devRef .tc Cert.KernelIdeal.main_v18) := by
  fold_at

theorem midK_v52 (YK : ValK) : after midK YK (Proc.devRef .tc Cert.KernelIdeal.main_v52) = YK (Proc.devRef .tc Cert.KernelIdeal.main_v52) := by
  fold_at

theorem midK_v25 (YK : ValK) : after midK YK (Proc.devRef .tc Cert.KernelIdeal.main_v25) = YK (Proc.devRef .tc Cert.KernelIdeal.main_v25) := by
  fold_at

theorem midK_v48 (YK : ValK) : after midK YK (Proc.devRef .tc Cert.KernelIdeal.main_v48) = YK (Proc.devRef .tc Cert.KernelIdeal.main_v48) := by
  fold_at

end Cert.Bridge

end
-- ==== Proof.BridgePassR.lean ====
/-
  Buffers the reference program's stretches do not write keep their contents: the arguments through the routing
  stretch; the weights and the routing's four results through the dispatch stretch; the routing's four results
  through the contractions.
-/
import proofs.«111815_j24352464569736_1_alg».proof.Proof.BridgeDefs

set_option maxRecDepth 16384

noncomputable section

namespace Cert.Bridge

open Idealize.ShloMosaic Idealize.ShloMosaic.TcCoe Idealize.SL.Sem Idealize.ShloMosaic.StableHlo

theorem pre_arg0 (LR : ValR) : after Cert.ReferenceIdeal.Run.pre LR (Proc.devRef .tc Cert.ReferenceIdeal.main_arg0) = LR (Proc.devRef .tc Cert.ReferenceIdeal.main_arg0) := by
  fold_at

theorem pre_arg3 (LR : ValR) : after Cert.ReferenceIdeal.Run.pre LR (Proc.devRef .tc Cert.ReferenceIdeal.main_arg3) = LR (Proc.devRef .tc Cert.ReferenceIdeal.main_arg3) := by
  fold_at

theorem pre_arg4 (LR : ValR) : after Cert.ReferenceIdeal.Run.pre LR (Proc.devRef .tc Cert.ReferenceIdeal.main_arg4) = LR (Proc.devRef .tc Cert.ReferenceIdeal.main_arg4) := by
  fold_at

theorem pre_arg5 (LR : ValR) : after Cert.ReferenceIdeal.Run.pre LR (Proc.devRef .tc Cert.ReferenceIdeal.main_arg5) = LR (Proc.devRef .tc Cert.ReferenceIdeal.main_arg5) := by
  fold_at

theorem midA_arg3 (YR : ValR) : after Cert.ReferenceIdeal.Run.midA YR (Proc.devRef .tc Cert.ReferenceIdeal.main_arg3) = YR (Proc.devRef .tc Cert.ReferenceIdeal.main_arg3) := by
  fold_at

theorem midA_arg4 (YR : ValR) : after Cert.ReferenceIdeal.Run.midA YR (Proc.devRef .tc Cert.ReferenceIdeal.main_arg4) = YR (Proc.devRef .tc Cert.ReferenceIdeal.main_arg4) := by
  fold_at

theorem midA_arg5 (YR : ValR) : after Cert.ReferenceIdeal.Run.midA YR (Proc.devRef .tc Cert.ReferenceIdeal.main_arg5) = YR (Proc.devRef .tc Cert.ReferenceIdeal.main_arg5) := by
  fold_at

theorem midA_v18 (YR : ValR) : after Cert.ReferenceIdeal.Run.midA YR (Proc.devRef .tc Cert.ReferenceIdeal.main_v18) = YR (Proc.devRef .tc Cert.ReferenceIdeal.main_v18) := by
  fold_at

theorem midA_v52 (YR : ValR) : after Cert.ReferenceIdeal.Run.midA YR (Proc.devRef .tc Cert.ReferenceIdeal.main_v52) = YR (Proc.devRef .tc Cert.ReferenceIdeal.main_v52) := by
  fold_at

theorem midA_v25 (YR : ValR) : after Cert.ReferenceIdeal.Run.midA YR (Proc.devRef .tc Cert.ReferenceIdeal.main_v25) = YR (Proc.devRef .tc Cert.ReferenceIdeal.main_v25) := by
  fold_at

theorem midA_v48 (YR : ValR) : after Cert.ReferenceIdeal.Run.midA YR (Proc.devRef .tc Cert.ReferenceIdeal.main_v48) = YR (Proc.devRef .tc Cert.ReferenceIdeal.main_v48) := by
  fold_at

theorem midB_v18 (ZR : ValR) : after Cert.ReferenceIdeal.Run.midB ZR (Proc.devRef .tc Cert.ReferenceIdeal.main_v18) = ZR (Proc.devRef .tc Cert.ReferenceIdeal.main_v18) := by
  fold_at

theorem midB_v52 (ZR : ValR) : after Cert.ReferenceIdeal.Run.midB ZR (Proc.devRef .tc Cert.ReferenceIdeal.main_v52) = ZR (Proc.devRef .tc Cert.ReferenceIdeal.main_v52) := by
  fold_at

theorem midB_v25 (ZR : ValR) : after Cert.ReferenceIdeal.Run.midB ZR (Proc.devRef .tc Cert.ReferenceIdeal.main_v25) = ZR (Proc.devRef .tc Cert.ReferenceIdeal.main_v25) := by
  fold_at

theorem midB_v48 (ZR : ValR) : after Cert.ReferenceIdeal.Run.midB ZR (Proc.devRef .tc Cert.ReferenceIdeal.main_v48) = ZR (Proc.devRef .tc Cert.ReferenceIdeal.main_v48) := by
  fold_at

end Cert.Bridge

end
-- ==== Proof.BridgeDispatch.lean ====
/-
  The dispatch into per-expert rows.  Both programs scatter the gathered token rows into a zero table of 32769 rows
  at the same slots, drop the overflow row and regroup the rest by expert.  The kernel program does it on narrowed
  tokens and in a narrow zero table; on the extended reals a narrowing is the identity and both zeros are 0.
  The kernel program's narrowed weights are, likewise, the weights.
-/
import proofs.«111815_j24352464569736_1_alg».proof.Proof.BridgeDefs
import Idealize.ShloMosaic.PureOps.IdealRules

set_option maxRecDepth 16384

noncomputable section

namespace Cert.Bridge

open Idealize.ShloMosaic Idealize.ShloMosaic.TcCoe Idealize.SL.Sem Idealize.ShloMosaic.StableHlo

/-- The two zero scalars, one of each width, are the extended real 0. -/
theorem zero_narrow : (constant (F := Ideal) Cert.KernelIdeal.S_ .bf16 0x0000#16 : Cert.KernelIdeal.S_.Idx → EReal)
    = (constant (F := Ideal) Cert.ReferenceIdeal.S_ .f32 0x00000000#32 : Cert.ReferenceIdeal.S_.Idx → EReal) := by
  funext i
  show Ideal.ofBits .bf16 0x0000#16 = Ideal.ofBits .f32 0x00000000#32
  rw [IdealRules.sign_bit.ideal_zero .bf16, IdealRules.sign_bit.ideal_zero .f32]

set_option maxHeartbeats 4000000 in
/-- From routing results and tokens that agree, the two dispatch stretches leave the same per-expert rows. -/
theorem dispatch_eq (YK : ValK) (YR : ValR)
    (h52 : YK (Proc.devRef .tc Cert.KernelIdeal.main_v52) = YR (Proc.devRef .tc Cert.ReferenceIdeal.main_v52))
    (h18 : YK (Proc.devRef .tc Cert.KernelIdeal.main_v18) = YR (Proc.devRef .tc Cert.ReferenceIdeal.main_v18))
    (h0 : YK (Proc.devRef .tc Cert.KernelIdeal.main_arg0) = YR (Proc.devRef .tc Cert.ReferenceIdeal.main_arg0)) :
    after midK YK (Proc.devRef .tc Cert.KernelIdeal.main_v70) = after Cert.ReferenceIdeal.Run.midA YR (Proc.devRef .tc Cert.ReferenceIdeal.main_v69) := by
  fold_at
  rw [h52, h18, h0, zero_narrow]
  rfl

/-- The narrowed gate weights are the gate weights. -/
theorem narrow_gate (YK : ValK) : after midK YK (Proc.devRef .tc Cert.KernelIdeal.main_v71) = YK (Proc.devRef .tc Cert.KernelIdeal.main_arg3) := by
  fold_at
  rfl
/-- The narrowed up weights are the up weights. -/
theorem narrow_up (YK : ValK) : after midK YK (Proc.devRef .tc Cert.KernelIdeal.main_v72) = YK (Proc.devRef .tc Cert.KernelIdeal.main_arg4) := by
  fold_at
  rfl
/-- The narrowed down weights are the down weights. -/
theorem narrow_down (YK : ValK) : after midK YK (Proc.devRef .tc Cert.KernelIdeal.main_v73) = YK (Proc.devRef .tc Cert.KernelIdeal.main_arg5) := by
  fold_at
  rfl

end Cert.Bridge

end
-- ==== Proof.Spec.lean ====
/-
  The expert feed-forward block as one function of its four operand arrays, entry by entry, on the
  extended reals.  For expert `e`, capacity row `c` and hidden column `f`:
    proj x w e c f   = ∑ k, x[e, c, k] · w[e, k, f]            (a row of the dispatched tokens against a weight column)
    hidden … e c f   = (g · σ(g)) · u   with g = proj x wg e c f, u = proj x wu e c f, σ the logistic function
    expertOut … [e, c, d] = ∑ f, hidden … e c f · wd[e, f, d]
  Both programs compute this array: one tile of 512 rows at a time on the matrix unit, and as three batched
  contractions on the host.
-/
import Idealize.ShloMosaic.PureOps.Ideal
import Idealize.ShloMosaic.Lib.ValueIdx

noncomputable section

open scoped BigOperators

namespace Cert.Moe

open Idealize.ShloMosaic Idealize.ShloMosaic.ValueIdx

/-- The dispatched tokens, `[expert, capacity row, model column]`. -/
abbrev XeShape : Shape := ⟨3, ![16, 2048, 1024]⟩
/-- The gate and up projections' weights, `[expert, model column, hidden column]`. -/
abbrev WinShape : Shape := ⟨3, ![16, 1024, 512]⟩
/-- The down projection's weights, `[expert, hidden column, model column]`. -/
abbrev WoutShape : Shape := ⟨3, ![16, 512, 1024]⟩

/-- One entry of a projection: row `c` of expert `e`'s tokens against column `f` of that expert's weights. -/
def proj (x : XeShape.Idx → EReal) (w : WinShape.Idx → EReal) (e : Fin 16) (c : Fin 2048) (f : Fin 512) : EReal :=
  ∑ k : Fin 1024, x (ix3 e c k) * w (ix3 e k f)

/-- One entry of the gated hidden activation: `(g · σ(g)) · u`. -/
def hidden (x : XeShape.Idx → EReal) (wg wu : WinShape.Idx → EReal) (e : Fin 16) (c : Fin 2048) (f : Fin 512) : EReal :=
  (proj x wg e c f * Ideal.logistic (proj x wg e c f)) * proj x wu e c f

/-- One entry of the block's output, by coordinates. -/
def expertOutAt (x : XeShape.Idx → EReal) (wg wu : WinShape.Idx → EReal) (wd : WoutShape.Idx → EReal)
    (e : Fin 16) (c : Fin 2048) (d : Fin 1024) : EReal :=
  ∑ f : Fin 512, hidden x wg wu e c f * wd (ix3 e f d)

/-- The block's output array. -/
def expertOut (x : XeShape.Idx → EReal) (wg wu : WinShape.Idx → EReal) (wd : WoutShape.Idx → EReal) :
    XeShape.Idx → EReal :=
  fun i => expertOutAt x wg wu wd (i 0) (i 1) (i 2)

theorem expertOut_apply (x : XeShape.Idx → EReal) (wg wu : WinShape.Idx → EReal) (wd : WoutShape.Idx → EReal)
    (e : Fin 16) (c : Fin 2048) (d : Fin 1024) :
    expertOut x wg wu wd (ix3 e c d) = expertOutAt x wg wu wd e c d := rfl

end Cert.Moe

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.RefMath.lean ====
/-
  The host's three batched contractions around the gated activation compute the expert block's output
  (`Cert.Moe.expertOut`), entry by entry, on the extended reals.
-/
import proofs.«111815_j24352464569736_1_alg».proof.ReferenceIdeal
import proofs.«111815_j24352464569736_1_alg».proof.Proof.Gen.ReferenceIdeal
import proofs.«111815_j24352464569736_1_alg».proof.Proof.Spec
import proofs.«111815_j24352464569736_1_alg».proof.Proof.LibRowDims
import Idealize.ShloMosaic.Lib.ValueIdx
import Idealize.ShloMosaic.PureOps.Ideal.Laws

noncomputable section

open scoped BigOperators

namespace Cert.ReferenceIdeal.Math

open Cert.ReferenceIdeal Idealize.ShloMosaic Idealize.ShloMosaic.ValueIdx Cert.ReferenceIdeal.Facts₀

/-- The host's expression for the block's output, as the reference's operations compose it. -/
def yeTerm (xe : FVec Ideal S16x2048x1024 .f32) (wg wu : FVec Ideal S16x1024x512 .f32) (wd : FVec Ideal S16x512x1024 .f32) :
    FVec Ideal S16x2048x1024 .f32 :=
  Host.dotGeneral dot_S16x2048x512_S16x512x1024_S16x2048x1024_2_1_1_2_0_0 none
    (mulf
      (mulf (Host.dotGeneral dot_S16x2048x1024_S16x1024x512_S16x2048x512_2_1_1_2_0_0 none xe wg)
        (Host.divf (broadcastInDim S16x2048x512 ![] bcast_S_S16x2048x512 (constant S_ .f32 0x3F800000#32))
          (addf (broadcastInDim S16x2048x512 ![] bcast_S_S16x2048x512 (constant S_ .f32 0x3F800000#32))
            (Host.exp (Host.negf (Host.dotGeneral dot_S16x2048x1024_S16x1024x512_S16x2048x512_2_1_1_2_0_0 none xe wg))))))
      (Host.dotGeneral dot_S16x2048x1024_S16x1024x512_S16x2048x512_2_1_1_2_0_0 none xe wu))
    wd

/-- The left operand's expert coordinate is the output's, whatever the contraction position. -/
theorem inDot_lhs_batch (e : Fin 16) (c : Fin 2048) (f : Fin 512) (k : (dot_S16x2048x1024_S16x1024x512_S16x2048x512_2_1_1_2_0_0).contr.Idx) :
    ((dot_S16x2048x1024_S16x1024x512_S16x2048x512_2_1_1_2_0_0).lhsIdx (ix3 e c f) k 0).val = e.val := rfl

/-- The left operand's row coordinate is the output's row, whatever the contraction position. -/
theorem inDot_lhs_row (e : Fin 16) (c : Fin 2048) (f : Fin 512) (k : (dot_S16x2048x1024_S16x1024x512_S16x2048x512_2_1_1_2_0_0).contr.Idx) :
    ((dot_S16x2048x1024_S16x1024x512_S16x2048x512_2_1_1_2_0_0).lhsIdx (ix3 e c f) k 1).val = c.val := rfl

/-- The right operand's expert coordinate is the output's, whatever the contraction position. -/
theorem inDot_rhs_batch (e : Fin 16) (c : Fin 2048) (f : Fin 512) (k : (dot_S16x2048x1024_S16x1024x512_S16x2048x512_2_1_1_2_0_0).contr.Idx) :
    ((dot_S16x2048x1024_S16x1024x512_S16x2048x512_2_1_1_2_0_0).rhsIdx (ix3 e c f) k 0).val = e.val := rfl

/-- The right operand's column coordinate is the output's column, whatever the contraction position. -/
theorem inDot_rhs_col (e : Fin 16) (c : Fin 2048) (f : Fin 512) (k : (dot_S16x2048x1024_S16x1024x512_S16x2048x512_2_1_1_2_0_0).contr.Idx) :
    ((dot_S16x2048x1024_S16x1024x512_S16x2048x512_2_1_1_2_0_0).rhsIdx (ix3 e c f) k 2).val = f.val := rfl

/-- The batched contraction's sum at the output entry `(e, c, f)` runs over the 1024 products
    `lhs (e, c, k) · rhs (e, k, f)`. -/
theorem inDot_sum (lhs : S16x2048x1024.Idx → EReal) (rhs : S16x1024x512.Idx → EReal)
    (e : Fin 16) (c : Fin 2048) (f : Fin 512) :
    ∑ k : (dot_S16x2048x1024_S16x1024x512_S16x2048x512_2_1_1_2_0_0).contr.Idx,
        lhs ((dot_S16x2048x1024_S16x1024x512_S16x2048x512_2_1_1_2_0_0).lhsIdx (ix3 e c f) k) * rhs ((dot_S16x2048x1024_S16x1024x512_S16x2048x512_2_1_1_2_0_0).rhsIdx (ix3 e c f) k)
      = ∑ k : Fin 1024, lhs (ix3 e c k) * rhs (ix3 e k f) := by
  -- re-index the sum by the one contracted coordinate
  rw [← Equiv.sum_comp (contrEquiv1 (dot_S16x2048x1024_S16x1024x512_S16x2048x512_2_1_1_2_0_0) 1024 rfl rfl).symm]
  refine Finset.sum_congr rfl fun k _ => ?_
  -- the left operand is read at (e, c, k)
  have hl : (dot_S16x2048x1024_S16x1024x512_S16x2048x512_2_1_1_2_0_0).lhsIdx (ix3 e c f) ((contrEquiv1 (dot_S16x2048x1024_S16x1024x512_S16x2048x512_2_1_1_2_0_0) 1024 rfl rfl).symm k) = ix3 e c k := by
    funext a
    refine Fin.ext ?_
    match a with
    | ⟨0, _⟩ => exact inDot_lhs_batch e c f _
    | ⟨1, _⟩ => exact inDot_lhs_row e c f _
    | ⟨2, _⟩ =>
      exact ((dot_S16x2048x1024_S16x1024x512_S16x2048x512_2_1_1_2_0_0).lhsIdx_val_of_single (cl := 2) rfl _ _).trans
        (contrEquiv1_symm_val (dot_S16x2048x1024_S16x1024x512_S16x2048x512_2_1_1_2_0_0) 1024 rfl rfl k)
  -- the right operand is read at (e, k, f)
  have hr : (dot_S16x2048x1024_S16x1024x512_S16x2048x512_2_1_1_2_0_0).rhsIdx (ix3 e c f) ((contrEquiv1 (dot_S16x2048x1024_S16x1024x512_S16x2048x512_2_1_1_2_0_0) 1024 rfl rfl).symm k) = ix3 e k f := by
    funext a
    refine Fin.ext ?_
    match a with
    | ⟨0, _⟩ => exact inDot_rhs_batch e c f _
    | ⟨1, _⟩ =>
      exact ((dot_S16x2048x1024_S16x1024x512_S16x2048x512_2_1_1_2_0_0).rhsIdx_val_of_single (cr := 1) rfl _ _).trans
        (contrEquiv1_symm_val (dot_S16x2048x1024_S16x1024x512_S16x2048x512_2_1_1_2_0_0) 1024 rfl rfl k)
    | ⟨2, _⟩ => exact inDot_rhs_col e c f _
  rw [hl, hr]

/-- The left operand's expert coordinate is the output's, whatever the contraction position. -/
theorem outDot_lhs_batch (e : Fin 16) (c : Fin 2048) (f : Fin 1024) (k : (dot_S16x2048x512_S16x512x1024_S16x2048x1024_2_1_1_2_0_0).contr.Idx) :
    ((dot_S16x2048x512_S16x512x1024_S16x2048x1024_2_1_1_2_0_0).lhsIdx (ix3 e c f) k 0).val = e.val := rfl

/-- The left operand's row coordinate is the output's row, whatever the contraction position. -/
theorem outDot_lhs_row (e : Fin 16) (c : Fin 2048) (f : Fin 1024) (k : (dot_S16x2048x512_S16x512x1024_S16x2048x1024_2_1_1_2_0_0).contr.Idx) :
    ((dot_S16x2048x512_S16x512x1024_S16x2048x1024_2_1_1_2_0_0).lhsIdx (ix3 e c f) k 1).val = c.val := rfl

/-- The right operand's expert coordinate is the output's, whatever the contraction position. -/
theorem outDot_rhs_batch (e : Fin 16) (c : Fin 2048) (f : Fin 1024) (k : (dot_S16x2048x512_S16x512x1024_S16x2048x1024_2_1_1_2_0_0).contr.Idx) :
    ((dot_S16x2048x512_S16x512x1024_S16x2048x1024_2_1_1_2_0_0).rhsIdx (ix3 e c f) k 0).val = e.val := rfl

/-- The right operand's column coordinate is the output's column, whatever the contraction position. -/
theorem outDot_rhs_col (e : Fin 16) (c : Fin 2048) (f : Fin 1024) (k : (dot_S16x2048x512_S16x512x1024_S16x2048x1024_2_1_1_2_0_0).contr.Idx) :
    ((dot_S16x2048x512_S16x512x1024_S16x2048x1024_2_1_1_2_0_0).rhsIdx (ix3 e c f) k 2).val = f.val := rfl

/-- The batched contraction's sum at the output entry `(e, c, f)` runs over the 512 products
    `lhs (e, c, k) · rhs (e, k, f)`. -/
theorem outDot_sum (lhs : S16x2048x512.Idx → EReal) (rhs : S16x512x1024.Idx → EReal)
    (e : Fin 16) (c : Fin 2048) (f : Fin 1024) :
    ∑ k : (dot_S16x2048x512_S16x512x1024_S16x2048x1024_2_1_1_2_0_0).contr.Idx,
        lhs ((dot_S16x2048x512_S16x512x1024_S16x2048x1024_2_1_1_2_0_0).lhsIdx (ix3 e c f) k) * rhs ((dot_S16x2048x512_S16x512x1024_S16x2048x1024_2_1_1_2_0_0).rhsIdx (ix3 e c f) k)
      = ∑ k : Fin 512, lhs (ix3 e c k) * rhs (ix3 e k f) := by
  -- re-index the sum by the one contracted coordinate
  rw [← Equiv.sum_comp (contrEquiv1 (dot_S16x2048x512_S16x512x1024_S16x2048x1024_2_1_1_2_0_0) 512 rfl rfl).symm]
  refine Finset.sum_congr rfl fun k _ => ?_
  -- the left operand is read at (e, c, k)
  have hl : (dot_S16x2048x512_S16x512x1024_S16x2048x1024_2_1_1_2_0_0).lhsIdx (ix3 e c f) ((contrEquiv1 (dot_S16x2048x512_S16x512x1024_S16x2048x1024_2_1_1_2_0_0) 512 rfl rfl).symm k) = ix3 e c k := by
    funext a
    refine Fin.ext ?_
    match a with
    | ⟨0, _⟩ => exact outDot_lhs_batch e c f _
    | ⟨1, _⟩ => exact outDot_lhs_row e c f _
    | ⟨2, _⟩ =>
      exact ((dot_S16x2048x512_S16x512x1024_S16x2048x1024_2_1_1_2_0_0).lhsIdx_val_of_single (cl := 2) rfl _ _).trans
        (contrEquiv1_symm_val (dot_S16x2048x512_S16x512x1024_S16x2048x1024_2_1_1_2_0_0) 512 rfl rfl k)
  -- the right operand is read at (e, k, f)
  have hr : (dot_S16x2048x512_S16x512x1024_S16x2048x1024_2_1_1_2_0_0).rhsIdx (ix3 e c f) ((contrEquiv1 (dot_S16x2048x512_S16x512x1024_S16x2048x1024_2_1_1_2_0_0) 512 rfl rfl).symm k) = ix3 e k f := by
    funext a
    refine Fin.ext ?_
    match a with
    | ⟨0, _⟩ => exact outDot_rhs_batch e c f _
    | ⟨1, _⟩ =>
      exact ((dot_S16x2048x512_S16x512x1024_S16x2048x1024_2_1_1_2_0_0).rhsIdx_val_of_single (cr := 1) rfl _ _).trans
        (contrEquiv1_symm_val (dot_S16x2048x512_S16x512x1024_S16x2048x1024_2_1_1_2_0_0) 512 rfl rfl k)
    | ⟨2, _⟩ => exact outDot_rhs_col e c f _
  rw [hl, hr]

/-- The bit pattern `0x3F800000` is the real number one. -/
theorem one_f32 : Ideal.ofBits .f32 0x3F800000#32 = 1 := IdealRules.sign_bit.ideal_onePat .f32

/-- The splat of that pattern reads one at every entry. -/
theorem ones_apply (j : S16x2048x512.Idx) :
    (broadcastInDim S16x2048x512 ![] bcast_S_S16x2048x512 (constant S_ .f32 0x3F800000#32) : FVec Ideal S16x2048x512 .f32) j = 1 :=
  one_f32

/-- A host projection, entry by entry: row `c` of expert `e`'s tokens against column `f` of its weights. -/
theorem inProj_apply (xe : FVec Ideal S16x2048x1024 .f32) (w : FVec Ideal S16x1024x512 .f32)
    (e : Fin 16) (c : Fin 2048) (f : Fin 512) :
    Host.dotGeneral dot_S16x2048x1024_S16x1024x512_S16x2048x512_2_1_1_2_0_0 none xe w (ix3 e c f) = Cert.Moe.proj xe w e c f := by
  simp only [Host.dotGeneral]
  rw [Ideal.dotGeneral_apply]
  exact inDot_sum xe w e c f

/-- The gated hidden activation the host forms between the contractions, entry by entry. -/
theorem hidden_apply (xe : FVec Ideal S16x2048x1024 .f32) (wg wu : FVec Ideal S16x1024x512 .f32)
    (e : Fin 16) (c : Fin 2048) (f : Fin 512) :
    (mulf
      (mulf (Host.dotGeneral dot_S16x2048x1024_S16x1024x512_S16x2048x512_2_1_1_2_0_0 none xe wg)
        (Host.divf (broadcastInDim S16x2048x512 ![] bcast_S_S16x2048x512 (constant S_ .f32 0x3F800000#32))
          (addf (broadcastInDim S16x2048x512 ![] bcast_S_S16x2048x512 (constant S_ .f32 0x3F800000#32))
            (Host.exp (Host.negf (Host.dotGeneral dot_S16x2048x1024_S16x1024x512_S16x2048x512_2_1_1_2_0_0 none xe wg))))))
      (Host.dotGeneral dot_S16x2048x1024_S16x1024x512_S16x2048x512_2_1_1_2_0_0 none xe wu) : FVec Ideal S16x2048x512 .f32) (ix3 e c f)
      = Cert.Moe.hidden xe wg wu e c f := by
  -- each elementwise operation reads through at the entry
  show (Host.dotGeneral dot_S16x2048x1024_S16x1024x512_S16x2048x512_2_1_1_2_0_0 none xe wg (ix3 e c f)
      * Ideal.div ((broadcastInDim S16x2048x512 ![] bcast_S_S16x2048x512 (constant S_ .f32 0x3F800000#32) : FVec Ideal S16x2048x512 .f32) (ix3 e c f))
          ((broadcastInDim S16x2048x512 ![] bcast_S_S16x2048x512 (constant S_ .f32 0x3F800000#32) : FVec Ideal S16x2048x512 .f32) (ix3 e c f)
            + Ideal.exp (-(Host.dotGeneral dot_S16x2048x1024_S16x1024x512_S16x2048x512_2_1_1_2_0_0 none xe wg (ix3 e c f)))))
      * Host.dotGeneral dot_S16x2048x1024_S16x1024x512_S16x2048x512_2_1_1_2_0_0 none xe wu (ix3 e c f) = _
  rw [ones_apply, inProj_apply, inProj_apply]
  rfl

/-- That expression is the expert block's output. -/
theorem yeTerm_eq (xe : FVec Ideal S16x2048x1024 .f32) (wg wu : FVec Ideal S16x1024x512 .f32) (wd : FVec Ideal S16x512x1024 .f32) :
    yeTerm xe wg wu wd = Cert.Moe.expertOut xe wg wu wd := by
  funext i
  obtain ⟨e, c, d, rfl⟩ : ∃ (e : Fin 16) (c : Fin 2048) (d : Fin 1024), i = ix3 e c d := ⟨i 0, i 1, i 2, eq_ix3 i⟩
  rw [Cert.Moe.expertOut_apply]
  unfold yeTerm
  simp only [Host.dotGeneral]
  rw [Ideal.dotGeneral_apply, outDot_sum]
  unfold Cert.Moe.expertOutAt
  refine Finset.sum_congr rfl fun f _ => ?_
  rw [← hidden_apply]

end Cert.ReferenceIdeal.Math

end
-- ==== Proof.BridgeContract.lean ====
/-
  The reference's three batched contractions around the gated activation, read off its operations: the expression
  `yeTerm` of the per-expert rows and the three weight arrays.
-/
import proofs.«111815_j24352464569736_1_alg».proof.Proof.BridgeDefs
import proofs.«111815_j24352464569736_1_alg».proof.Proof.RefMath

set_option maxRecDepth 16384

noncomputable section

namespace Cert.Bridge

open Idealize.ShloMosaic Idealize.ShloMosaic.TcCoe Idealize.SL.Sem Idealize.ShloMosaic.StableHlo

set_option maxHeartbeats 4000000 in
theorem contractions_eq (ZR : ValR) :
    after Cert.ReferenceIdeal.Run.midB ZR (Proc.devRef .tc Cert.ReferenceIdeal.main_v74)
      = Cert.ReferenceIdeal.Math.yeTerm (ZR (Proc.devRef .tc Cert.ReferenceIdeal.main_v69)) (ZR (Proc.devRef .tc Cert.ReferenceIdeal.main_arg3)) (ZR (Proc.devRef .tc Cert.ReferenceIdeal.main_arg4)) (ZR (Proc.devRef .tc Cert.ReferenceIdeal.main_arg5)) := by
  fold_at
  rfl

end Cert.Bridge

end
-- ==== Proof.BridgeCombine.lean ====
/-
  The weighted combine.  Both programs gather each pair's row of the expert block's output at its slot, scale it by
  its routing weight where the pair fit its expert's capacity, and add it into its source token's row: the same
  operations on the same operands.
-/
import proofs.«111815_j24352464569736_1_alg».proof.Proof.BridgeDefs

set_option maxRecDepth 16384

noncomputable section

namespace Cert.Bridge

open Idealize.ShloMosaic Idealize.ShloMosaic.TcCoe Idealize.SL.Sem Idealize.ShloMosaic.StableHlo

set_option maxHeartbeats 4000000 in
theorem combine_eq (WK : ValK) (XR : ValR)
    (h74 : WK (Proc.devRef .tc Cert.KernelIdeal.main_v74) = XR (Proc.devRef .tc Cert.ReferenceIdeal.main_v74))
    (h18 : WK (Proc.devRef .tc Cert.KernelIdeal.main_v18) = XR (Proc.devRef .tc Cert.ReferenceIdeal.main_v18))
    (h52 : WK (Proc.devRef .tc Cert.KernelIdeal.main_v52) = XR (Proc.devRef .tc Cert.ReferenceIdeal.main_v52))
    (h25 : WK (Proc.devRef .tc Cert.KernelIdeal.main_v25) = XR (Proc.devRef .tc Cert.ReferenceIdeal.main_v25))
    (h48 : WK (Proc.devRef .tc Cert.KernelIdeal.main_v48) = XR (Proc.devRef .tc Cert.ReferenceIdeal.main_v48)) :
    after tailK WK (Proc.devRef .tc Cert.KernelIdeal.main_v97) = after Cert.ReferenceIdeal.Run.tail XR (Proc.devRef .tc Cert.ReferenceIdeal.main_v97) := by
  fold_at
  rw [h74, h18, h52, h25, h48]
  rfl

end Cert.Bridge

end
-- ==== Proof.KernelArray.lean ====
/-
  What the grouped-GEMM region leaves in its result array: the expert block's output (`Cert.Moe.expertOut`) of the
  four operand arrays as the region finds them.
-/
import proofs.«111815_j24352464569736_1_alg».proof.Proof.Gen.KernelIdeal.Frame
import proofs.«111815_j24352464569736_1_alg».proof.Proof.Spec
import proofs.«111815_j24352464569736_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Arr

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-! ## The tile's payload at an index -/

/-- The two projections' dimension numbers are the plain ones, [512, 1024] by [1024, 512]. -/
theorem dotIn_eq : dot_S512x1024_S1024x512_S512x512_1_0_0_1_n_n = DotDims.plain 512 1024 512 := rfl
/-- The down projection's dimension numbers are the plain ones, [512, 512] by [512, 1024]. -/
theorem dotOut_eq : dot_S512x512_S512x1024_S512x1024_1_0_0_1_n_n = DotDims.plain 512 512 1024 := rfl

/-- A [1, 512, 1024] block viewed as [512, 1024] reads (r, k) at (0, r, k). -/
theorem drop_x (x : FVec Ideal S1x512x1024 .bf16) (r : Fin 512) (k : Fin 1024) :
    shapeCast S512x1024 x shapeCasts_S1x512x1024_S512x1024 (ix2 r k) = x (ix3 0 r k) := by
  refine (shapeCast_dropUnit_apply ![512, 1024] x shapeCasts_S1x512x1024_S512x1024 (ix2 r k)).trans ?_
  congr 1
  funext a; match a with | ⟨0, _⟩ => rfl | ⟨1, _⟩ => rfl | ⟨2, _⟩ => rfl

/-- A [1, 1024, 512] block viewed as [1024, 512] reads (k, f) at (0, k, f). -/
theorem drop_w (x : FVec Ideal S1x1024x512 .bf16) (k : Fin 1024) (f : Fin 512) :
    shapeCast S1024x512 x shapeCasts_S1x1024x512_S1024x512 (ix2 k f) = x (ix3 0 k f) := by
  refine (shapeCast_dropUnit_apply ![1024, 512] x shapeCasts_S1x1024x512_S1024x512 (ix2 k f)).trans ?_
  congr 1
  funext a; match a with | ⟨0, _⟩ => rfl | ⟨1, _⟩ => rfl | ⟨2, _⟩ => rfl

/-- A [512, 1024] result stored as a [1, 512, 1024] block reads (0, r, d) at (r, d). -/
theorem add_y (y : FVec Ideal S512x1024 .f32) (z : Fin 1) (r : Fin 512) (d : Fin 1024) :
    shapeCast S1x512x1024 y shapeCasts_S512x1024_S1x512x1024 (ix3 z r d) = y (ix2 r d) := by
  refine (shapeCast_addUnit_apply ![512, 1024] y shapeCasts_S512x1024_S1x512x1024 (ix3 z r d)).trans ?_
  congr 1
  funext a; match a with | ⟨0, _⟩ => rfl | ⟨1, _⟩ => rfl

/-- One entry of a projection inside the tile: row `r` of the token block against column `f` of the weight block. -/
def tproj (x : FVec Ideal S1x512x1024 .bf16) (w : FVec Ideal S1x1024x512 .bf16) (r : Fin 512) (f : Fin 512) : EReal :=
  ∑ k : Fin 1024, x (ix3 0 r k) * w (ix3 0 k f)

/-- The tile's projection product at (r, f). -/
theorem proj_apply (x : FVec Ideal S1x512x1024 .bf16) (w : FVec Ideal S1x1024x512 .bf16) (r : Fin 512) (f : Fin 512) :
    matmul (F := Ideal) dot_S512x1024_S1024x512_S512x512_1_0_0_1_n_n none
        (shapeCast S512x1024 x shapeCasts_S1x512x1024_S512x1024) (shapeCast S1024x512 w shapeCasts_S1x1024x512_S1024x512)
        (constant S512x512 .f32 0x00000000#32) (ix2 r f) = tproj x w r f := by
  rw [dotIn_eq]
  refine (RowDims.matmul_plain_zero_apply none _ _ r f).trans ?_
  unfold tproj
  refine Finset.sum_congr rfl fun k _ => ?_
  rw [drop_x, drop_w]

/-- The tile's payload at (0, r, d): the gated hidden activation of row `r` against column `d` of the down weights. -/
theorem pay_apply (x0 : Vec Ideal S1x512x1024 .bf16) (x1 x2 : Vec Ideal S1x1024x512 .bf16) (x3 : Vec Ideal S1x512x1024 .bf16)
    (z : Fin 1) (r : Fin 512) (d : Fin 1024) :
    k0_pay1 x0 x1 x2 x3 (ix3 z r d)
      = ∑ f : Fin 512, ((tproj x0 x1 r f * Ideal.logistic (tproj x0 x1 r f)) * tproj x0 x2 r f) * x3 (ix3 0 f d) := by
  unfold k0_pay1
  refine (add_y _ z r d).trans ?_
  rw [dotOut_eq]
  refine (RowDims.matmul_plain_zero_apply none _ _ r d).trans ?_
  refine Finset.sum_congr rfl fun f _ => ?_
  rw [drop_x]
  congr 1
  show (matmul (F := Ideal) dot_S512x1024_S1024x512_S512x512_1_0_0_1_n_n none _ _ _ (ix2 r f)
      * Ideal.logistic (matmul (F := Ideal) dot_S512x1024_S1024x512_S512x512_1_0_0_1_n_n none _ _ _ (ix2 r f)))
      * matmul (F := Ideal) dot_S512x1024_S1024x512_S512x512_1_0_0_1_n_n none _ _ _ (ix2 r f) = _
  rw [proj_apply, proj_apply]

/-- A tile whose token block holds rows `row r` of expert `e` and whose weight blocks hold expert `e`'s matrices
    computes, at (0, r, d), the expert block's output entry (e, row r, d). -/
theorem tile_eq (X : Cert.Moe.XeShape.Idx → EReal) (Wg Wu : Cert.Moe.WinShape.Idx → EReal) (Wd : Cert.Moe.WoutShape.Idx → EReal)
    (x0 : FVec Ideal S1x512x1024 .bf16) (x1 x2 : FVec Ideal S1x1024x512 .bf16) (x3 : FVec Ideal S1x512x1024 .bf16)
    (e : Fin 16) (row : Fin 512 → Fin 2048)
    (h0 : ∀ r k, x0 (ix3 0 r k) = X (ix3 e (row r) k))
    (h1 : ∀ k f, x1 (ix3 0 k f) = Wg (ix3 e k f))
    (h2 : ∀ k f, x2 (ix3 0 k f) = Wu (ix3 e k f))
    (h3 : ∀ f d, x3 (ix3 0 f d) = Wd (ix3 e f d))
    (z : Fin 1) (r : Fin 512) (d : Fin 1024) :
    k0_pay1 (F := Ideal) x0 x1 x2 x3 (ix3 z r d) = Cert.Moe.expertOutAt X Wg Wu Wd e (row r) d := by
  rw [pay_apply]
  unfold Cert.Moe.expertOutAt Cert.Moe.hidden Cert.Moe.proj tproj
  simp only [h0, h1, h2, h3]

/-- The same at a block index `j` and an array index `i` related coordinate by coordinate. -/
theorem tile_eq_idx (X : Cert.Moe.XeShape.Idx → EReal) (Wg Wu : Cert.Moe.WinShape.Idx → EReal) (Wd : Cert.Moe.WoutShape.Idx → EReal)
    (x0 : FVec Ideal S1x512x1024 .bf16) (x1 x2 : FVec Ideal S1x1024x512 .bf16) (x3 : FVec Ideal S1x512x1024 .bf16)
    (e : Fin 16) (row : Fin 512 → Fin 2048)
    (h0 : ∀ r k, x0 (ix3 0 r k) = X (ix3 e (row r) k))
    (h1 : ∀ k f, x1 (ix3 0 k f) = Wg (ix3 e k f))
    (h2 : ∀ k f, x2 (ix3 0 k f) = Wu (ix3 e k f))
    (h3 : ∀ f d, x3 (ix3 0 f d) = Wd (ix3 e f d))
    (j : S1x512x1024.Idx) (i : Cert.Moe.XeShape.Idx)
    (hi0 : (i 0).val = e.val) (hi1 : (i 1).val = (row (j 1)).val) (hi2 : (i 2).val = (j 2).val) :
    k0_pay1 (F := Ideal) x0 x1 x2 x3 j = Cert.Moe.expertOut X Wg Wu Wd i := by
  obtain ⟨z, r, d, rfl⟩ : ∃ (z : Fin 1) (r : Fin 512) (d : Fin 1024), j = ix3 z r d := ⟨j 0, j 1, j 2, eq_ix3 j⟩
  obtain ⟨a, b, c', rfl⟩ : ∃ (a : Fin 16) (b : Fin 2048) (c' : Fin 1024), i = ix3 a b c' := ⟨i 0, i 1, i 2, eq_ix3 i⟩
  have ha : a = e := Fin.ext hi0
  have hb : b = row r := Fin.ext hi1
  have hc : c' = d := Fin.ext hi2
  subst ha hb hc
  rw [Cert.Moe.expertOut_apply]
  exact tile_eq X Wg Wu Wd x0 x1 x2 x3 a row h0 h1 h2 h3 z r c'

/-- The zero offsets, however spelt. -/
theorem hz : (![0, 0, 0] : Fin 3 → Nat) = fun _ => 0 := funext fun a => by fin_cases a <;> rfl

/-- The printed index maps over the grid: point `t` is expert `t / 4`, capacity tile `t % 4`; the token and result
    windows sit at block (expert, tile, 0), the three weight windows at block (expert, 0, 0). -/
theorem idx_facts : ∀ t : Fin cfg0.N,
      win0_4.index t (0 : Fin 3) = t.val / 4 ∧ win0_4.index t (1 : Fin 3) = t.val % 4 ∧ win0_4.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- The expert of grid point `t`. -/
def eOf (t : Fin cfg0.N) : Fin 16 := ⟨t.val / 4, by have h : t.val < 64 := N_0 ▸ t.isLt; omega⟩
/-- The array row of row `r` of grid point `t`'s tile. -/
def rowOf (t : Fin cfg0.N) (r : Fin 512) : Fin 2048 := ⟨t.val % 4 * 512 + r.val, by have := r.isLt; omega⟩

/-! ### Reading through the windows' blocks -/

/-- The result window's write-back of a block is the block itself: the window is never cut. -/
theorem cut4 (t : Fin cfg0.N) (P : FVec Ideal S1x512x1024 .f32) (j : ((win0 4).xblock (grid0.coords t)).Idx) :
    (win0 4).cut (grid0.coords t) P j = P j := rfl

/-- An array read through the result window's block at point `t` is the array at the block's embedded index. -/
theorem read4 (t : Fin cfg0.N) (G : Cert.Moe.XeShape.Idx → EReal) (j : ((win0 4).xblock (grid0.coords t)).Idx) :
    View.read (Elt Ideal) ((cfg0.win 4).blk t).view G j = G (((cfg0.win 4).blk t).view.emb j) := rfl
/-- The same through the token window's block. -/
theorem read0 (t : Fin cfg0.N) (G : Cert.Moe.XeShape.Idx → EReal) (j : ((win0 0).xblock (grid0.coords t)).Idx) :
    View.read (Elt Ideal) ((cfg0.win 0).blk t).view G j = G (((cfg0.win 0).blk t).view.emb j) := rfl
/-- The same through the gate window's block. -/
theorem read1 (t : Fin cfg0.N) (G : Cert.Moe.WinShape.Idx → EReal) (j : ((win0 1).xblock (grid0.coords t)).Idx) :
    View.read (Elt Ideal) ((cfg0.win 1).blk t).view G j = G (((cfg0.win 1).blk t).view.emb j) := rfl
/-- The same through the up window's block. -/
theorem read2 (t : Fin cfg0.N) (G : Cert.Moe.WinShape.Idx → EReal) (j : ((win0 2).xblock (grid0.coords t)).Idx) :
    View.read (Elt Ideal) ((cfg0.win 2).blk t).view G j = G (((cfg0.win 2).blk t).view.emb j) := rfl
/-- The same through the down window's block. -/
theorem read3 (t : Fin cfg0.N) (G : Cert.Moe.WoutShape.Idx → EReal) (j : ((win0 3).xblock (grid0.coords t)).Idx) :
    View.read (Elt Ideal) ((cfg0.win 3).blk t).view G j = G (((cfg0.win 3).blk t).view.emb j) := rfl

/-- A coordinate under the result window's block: block index × block size + the coordinate inside the block. -/
theorem emb4_val (t : Fin cfg0.N) (j : ((win0 4).xblock (grid0.coords t)).Idx) (a : Fin 3) :
    ((((cfg0.win 4).blk t).view.emb j) a).val = win0_4.index t a * S1x512x1024.size a + 1 * (j a).val := rfl
/-- The same under the token window's block. -/
theorem emb0_val (t : Fin cfg0.N) (j : ((win0 0).xblock (grid0.coords t)).Idx) (a : Fin 3) :
    ((((cfg0.win 0).blk t).view.emb j) a).val = win0_0.index t a * S1x512x1024.size a + 1 * (j a).val := rfl
/-- The same under the gate window's block. -/
theorem emb1_val (t : Fin cfg0.N) (j : ((win0 1).xblock (grid0.coords t)).Idx) (a : Fin 3) :
    ((((cfg0.win 1).blk t).view.emb j) a).val = win0_1.index t a * S1x1024x512.size a + 1 * (j a).val := rfl
/-- The same under the up window's block. -/
theorem emb2_val (t : Fin cfg0.N) (j : ((win0 2).xblock (grid0.coords t)).Idx) (a : Fin 3) :
    ((((cfg0.win 2).blk t).view.emb j) a).val = win0_2.index t a * S1x1024x512.size a + 1 * (j a).val := rfl
/-- The same under the down window's block. -/
theorem emb3_val (t : Fin cfg0.N) (j : ((win0 3).xblock (grid0.coords t)).Idx) (a : Fin 3) :
    ((((cfg0.win 3).blk t).view.emb j) a).val = win0_3.index t a * S1x512x1024.size a + 1 * (j a).val := rfl

/-- The token window's block at point `t` holds rows `rowOf t r` of expert `eOf t`. -/
theorem blk0_apply (t : Fin cfg0.N) (X : Cert.Moe.XeShape.Idx → EReal) (r : Fin 512) (k : Fin 1024) :
    View.read (Elt Ideal) ((cfg0.win 0).blk t).view X (ix3 0 r k) = X (ix3 (eOf t) (rowOf t r) k) := by
  obtain ⟨-, -, -, e0a, e0b, e0c, -⟩ := idx_facts t
  refine (read0 t X (ix3 0 r k)).trans (congrArg X ?_)
  funext a; apply Fin.ext
  refine (emb0_val t (ix3 0 r k) a).trans ?_
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 1024 + 1 * k.val = k.val; omega

/-- The gate window's block at point `t` holds expert `eOf t`'s whole matrix. -/
theorem blk1_apply (t : Fin cfg0.N) (W : Cert.Moe.WinShape.Idx → EReal) (k : Fin 1024) (f : Fin 512) :
    View.read (Elt Ideal) ((cfg0.win 1).blk t).view W (ix3 0 k f) = W (ix3 (eOf t) k f) := by
  obtain ⟨-, -, -, -, -, -, e1a, e1b, e1c, -⟩ := idx_facts t
  refine (read1 t W (ix3 0 k f)).trans (congrArg W ?_)
  funext a; apply Fin.ext
  refine (emb1_val t (ix3 0 k f) a).trans ?_
  match a with
  | ⟨0, _⟩ => show win0_1.index t (0 : Fin 3) * 1 + 1 * 0 = t.val / 4; omega
  | ⟨1, _⟩ => show win0_1.index t (1 : Fin 3) * 1024 + 1 * k.val = k.val; omega
  | ⟨2, _⟩ => show win0_1.index t (2 : Fin 3) * 512 + 1 * f.val = f.val; omega

/-- The up window's block at point `t` holds expert `eOf t`'s whole matrix. -/
theorem blk2_apply (t : Fin cfg0.N) (W : Cert.Moe.WinShape.Idx → EReal) (k : Fin 1024) (f : Fin 512) :
    View.read (Elt Ideal) ((cfg0.win 2).blk t).view W (ix3 0 k f) = W (ix3 (eOf t) k f) := by
  obtain ⟨-, -, -, -, -, -, -, -, -, e2a, e2b, e2c, -⟩ := idx_facts t
  refine (read2 t W (ix3 0 k f)).trans (congrArg W ?_)
  funext a; apply Fin.ext
  refine (emb2_val t (ix3 0 k f) a).trans ?_
  match a with
  | ⟨0, _⟩ => show win0_2.index t (0 : Fin 3) * 1 + 1 * 0 = t.val / 4; omega
  | ⟨1, _⟩ => show win0_2.index t (1 : Fin 3) * 1024 + 1 * k.val = k.val; omega
  | ⟨2, _⟩ => show win0_2.index t (2 : Fin 3) * 512 + 1 * f.val = f.val; omega

/-- The down window's block at point `t` holds expert `eOf t`'s whole matrix. -/
theorem blk3_apply (t : Fin cfg0.N) (W : Cert.Moe.WoutShape.Idx → EReal) (f : Fin 512) (d : Fin 1024) :
    View.read (Elt Ideal) ((cfg0.win 3).blk t).view W (ix3 0 f d) = W (ix3 (eOf t) f d) := by
  obtain ⟨-, -, -, -, -, -, -, -, -, -, -, -, e3a, e3b, e3c⟩ := idx_facts t
  refine (read3 t W (ix3 0 f d)).trans (congrArg W ?_)
  funext a; apply Fin.ext
  refine (emb3_val t (ix3 0 f d) a).trans ?_
  match a with
  | ⟨0, _⟩ => show win0_3.index t (0 : Fin 3) * 1 + 1 * 0 = t.val / 4; omega
  | ⟨1, _⟩ => show win0_3.index t (1 : Fin 3) * 512 + 1 * f.val = f.val; omega
  | ⟨2, _⟩ => show win0_3.index t (2 : Fin 3) * 1024 + 1 * d.val = d.val; omega

/-- What point `t` writes back, entry by entry, from ANY four operand arrays: the expert block's output under the
    result window's block. -/
theorem point_eq (t : Fin cfg0.N) (X : Cert.Moe.XeShape.Idx → EReal) (Wg Wu : Cert.Moe.WinShape.Idx → EReal)
    (Wd : Cert.Moe.WoutShape.Idx → EReal) (j : ((win0 4).xblock (grid0.coords t)).Idx) :
    (win0 4).cut (grid0.coords t) (k0_pay1 (F := Ideal)
        (View.read (Elt Ideal) ((cfg0.win 0).blk t).view X) (View.read (Elt Ideal) ((cfg0.win 1).blk t).view Wg)
        (View.read (Elt Ideal) ((cfg0.win 2).blk t).view Wu) (View.read (Elt Ideal) ((cfg0.win 3).blk t).view Wd)) j
      = View.read (Elt Ideal) ((cfg0.win 4).blk t).view (Cert.Moe.expertOut X Wg Wu Wd) j := by
  obtain ⟨e4a, e4b, e4c, -⟩ := idx_facts t
  refine (cut4 t _ j).trans (Eq.trans ?_ (read4 t (Cert.Moe.expertOut X Wg Wu Wd) j).symm)
  have hj0 : (j 0).val < 1 := (j 0).isLt
  refine tile_eq_idx X Wg Wu Wd _ _ _ _ (eOf t) (rowOf t) (blk0_apply t X) (blk1_apply t Wg) (blk2_apply t Wu) (blk3_apply t Wd)
    j _ ((emb4_val t j 0).trans ?_) ((emb4_val t j 1).trans ?_) ((emb4_val t j 2).trans ?_)
  · show win0_4.index t (0 : Fin 3) * 1 + 1 * (j 0).val = t.val / 4; omega
  · show win0_4.index t (1 : Fin 3) * 512 + 1 * (j 1).val = t.val % 4 * 512 + (j 1).val; omega
  · show win0_4.index t (2 : Fin 3) * 1024 + 1 * (j 2).val = (j 2).val; omega

variable (m : (ℓ : Loc nD τ sig) → Buf (Elt Ideal) ℓ)

/-- WHAT POINT `t` WRITES BACK is block `t` of the expert block's output of the operand arrays as the region finds them. -/
theorem flushed_eq (c : Dev nD) (t : Fin cfg0.N) :
    (dats (F := Ideal) m 0 c).flushed 4 t = ((cfg0.win 4).blk t).view.read (Elt Ideal)
      (Cert.Moe.expertOut (V m c main_v70) (V m c main_v71) (V m c main_v72) (V m c main_v73)) := by
  show (cfg0.win 4).cut (grid0.coords t) ((dats m 0 c).after 4 t) = _
  rw [after0_4]
  unfold out0_4
  rw [View.canon_unit_zero hz]
  simp only [View.ld_unit_zero (S := S1x512x1024) hz, View.ld_unit_zero (S := S1x1024x512) hz]
  unfold iblk
  funext j
  exact point_eq t (V m c main_v70) (V m c main_v71) (V m c main_v72) (V m c main_v73) j

/-- An index of the array is in point `t`'s block iff each coordinate is in the block's range on its axis. -/
theorem mem_blk (t : Fin cfg0.N) (i : S16x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v74).slice (win0_4.rect t)).set ↔ _
  rw [View.set_slice_whole, Rect.mem_set_unit]
  exact Iff.rfl

/-- Every entry (e, row, d) of the result lies in the block of the point (e, row / 512). -/
theorem cover (i : S16x2048x1024.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 1024 := (i 2).isLt
  have hN : (i 0).val * 4 + (i 1).val / 512 < cfg0.N := by rw [show cfg0.N = 64 from N_0]; omega
  obtain ⟨t, ht⟩ : ∃ t : Fin cfg0.N, t.val = (i 0).val * 4 + (i 1).val / 512 := ⟨⟨_, hN⟩, rfl⟩
  obtain ⟨e4a, e4b, e4c, -⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 1024 ≤ (i 2).val ∧ (i 2).val < win0_4.index t (2 : Fin 3) * 1024 + 1024
    omega

/-- After the region the result array holds the expert block's output of the operand arrays at the region's entry. -/
theorem final (c : Dev nD) :
    ((dats (F := Ideal) m 0 c).arrAt 4 cfg0.N : Cert.Moe.XeShape.Idx → EReal)
      = Cert.Moe.expertOut (V m c main_v70) (V m c main_v71) (V m c main_v72) (V m c main_v73) :=
  (dats (F := Ideal) m 0 c).arrAt_eq_of_cover 4
    (Cert.Moe.expertOut (V m c main_v70) (V m c main_v71) (V m c main_v72) (V m c main_v73))
    (fun t _ => flushed_eq m c t) cover

end Cert.KernelIdeal.Arr
end
-- ==== Proof.Bridge.lean ====
/-
  The two programs end with the same result.  From argument arrays that agree: the routing stretches leave the same
  four routing results; the dispatch stretches then leave the same per-expert rows, and the kernel program's narrowed
  weights are the weights; the region's write-backs and the reference's three contractions both leave the expert
  block's output of those rows and weights; and the combine stretches, the same operations on operands now known
  equal, leave the same result.
-/
import proofs.«111815_j24352464569736_1_alg».proof.Proof.BridgeTok
import proofs.«111815_j24352464569736_1_alg».proof.Proof.BridgeSlot
import proofs.«111815_j24352464569736_1_alg».proof.Proof.BridgeWeight
import proofs.«111815_j24352464569736_1_alg».proof.Proof.BridgeValid
import proofs.«111815_j24352464569736_1_alg».proof.Proof.BridgePassK
import proofs.«111815_j24352464569736_1_alg».proof.Proof.BridgePassR
import proofs.«111815_j24352464569736_1_alg».proof.Proof.BridgeDispatch
import proofs.«111815_j24352464569736_1_alg».proof.Proof.BridgeContract
import proofs.«111815_j24352464569736_1_alg».proof.Proof.BridgeCombine
import proofs.«111815_j24352464569736_1_alg».proof.Proof.KernelRun
import proofs.«111815_j24352464569736_1_alg».proof.Proof.KernelArray
import proofs.«111815_j24352464569736_1_alg».proof.Proof.RefMath

set_option maxRecDepth 16384

noncomputable section

namespace Cert.Bridge

open Idealize.ShloMosaic Idealize.ShloMosaic.TcCoe Idealize.SL.Sem Idealize.ShloMosaic.StableHlo

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ) (c : Dev Cert.KernelIdeal.nD)

/-- The kernel program's buffers after its routing stretch, and the reference's after its own. -/
abbrev YK : ValK := after preK (launchContents mK c)
abbrev YR : ValR := after Cert.ReferenceIdeal.Run.pre (launchContents mR c)
/-- The reference's buffers after its dispatch stretch. -/
abbrev ZR : ValR := after Cert.ReferenceIdeal.Run.midA (YR mR c)

/-- The region's result array is the reference's contraction result, once the routing results and the arguments
    the two sides read are known equal. -/
theorem block_eq
    (r18 : YK mK c (Proc.devRef .tc Cert.KernelIdeal.main_v18) = YR mR c (Proc.devRef .tc Cert.ReferenceIdeal.main_v18))
    (r52 : YK mK c (Proc.devRef .tc Cert.KernelIdeal.main_v52) = YR mR c (Proc.devRef .tc Cert.ReferenceIdeal.main_v52))
    (a0 : YK mK c (Proc.devRef .tc Cert.KernelIdeal.main_arg0) = YR mR c (Proc.devRef .tc Cert.ReferenceIdeal.main_arg0))
    (a3 : YK mK c (Proc.devRef .tc Cert.KernelIdeal.main_arg3) = YR mR c (Proc.devRef .tc Cert.ReferenceIdeal.main_arg3))
    (a4 : YK mK c (Proc.devRef .tc Cert.KernelIdeal.main_arg4) = YR mR c (Proc.devRef .tc Cert.ReferenceIdeal.main_arg4))
    (a5 : YK mK c (Proc.devRef .tc Cert.KernelIdeal.main_arg5) = YR mR c (Proc.devRef .tc Cert.ReferenceIdeal.main_arg5)) :
    Cert.KernelIdeal.Run.W mK c (Proc.devRef .tc Cert.KernelIdeal.main_v74) = after Cert.ReferenceIdeal.Run.midB (ZR mR c) (Proc.devRef .tc Cert.ReferenceIdeal.main_v74) := by
  have hV0 := V0_eq mK c
  -- what the region finds in its four operand arrays
  have x70 : Cert.KernelIdeal.Gen.V mK c Cert.KernelIdeal.main_v70 = ZR mR c (Proc.devRef .tc Cert.ReferenceIdeal.main_v69) := by
    show Cert.KernelIdeal.Gen.V0 mK c (Proc.devRef .tc Cert.KernelIdeal.main_v70) = _
    rw [hV0]
    exact dispatch_eq (YK mK c) (YR mR c) r52 r18 a0
  have x71 : Cert.KernelIdeal.Gen.V mK c Cert.KernelIdeal.main_v71 = ZR mR c (Proc.devRef .tc Cert.ReferenceIdeal.main_arg3) := by
    show Cert.KernelIdeal.Gen.V0 mK c (Proc.devRef .tc Cert.KernelIdeal.main_v71) = _
    rw [hV0, narrow_gate]
    exact a3.trans (midA_arg3 (YR mR c)).symm
  have x72 : Cert.KernelIdeal.Gen.V mK c Cert.KernelIdeal.main_v72 = ZR mR c (Proc.devRef .tc Cert.ReferenceIdeal.main_arg4) := by
    show Cert.KernelIdeal.Gen.V0 mK c (Proc.devRef .tc Cert.KernelIdeal.main_v72) = _
    rw [hV0, narrow_up]
    exact a4.trans (midA_arg4 (YR mR c)).symm
  have x73 : Cert.KernelIdeal.Gen.V mK c Cert.KernelIdeal.main_v73 = ZR mR c (Proc.devRef .tc Cert.ReferenceIdeal.main_arg5) := by
    show Cert.KernelIdeal.Gen.V0 mK c (Proc.devRef .tc Cert.KernelIdeal.main_v73) = _
    rw [hV0, narrow_down]
    exact a5.trans (midA_arg5 (YR mR c)).symm
  calc Cert.KernelIdeal.Run.W mK c (Proc.devRef .tc Cert.KernelIdeal.main_v74)
      = (Cert.KernelIdeal.Gen.dats (F := Ideal) mK 0 c).arrAt 4 Cert.KernelIdeal.cfg0.N := Cert.KernelIdeal.Run.W_v74 mK c
    _ = Cert.Moe.expertOut (Cert.KernelIdeal.Gen.V mK c Cert.KernelIdeal.main_v70) (Cert.KernelIdeal.Gen.V mK c Cert.KernelIdeal.main_v71)
          (Cert.KernelIdeal.Gen.V mK c Cert.KernelIdeal.main_v72) (Cert.KernelIdeal.Gen.V mK c Cert.KernelIdeal.main_v73) := Cert.KernelIdeal.Arr.final mK c
    _ = Cert.Moe.expertOut (ZR mR c (Proc.devRef .tc Cert.ReferenceIdeal.main_v69)) (ZR mR c (Proc.devRef .tc Cert.ReferenceIdeal.main_arg3))
          (ZR mR c (Proc.devRef .tc Cert.ReferenceIdeal.main_arg4)) (ZR mR c (Proc.devRef .tc Cert.ReferenceIdeal.main_arg5)) := by rw [x70, x71, x72, x73]
    _ = Cert.ReferenceIdeal.Math.yeTerm (ZR mR c (Proc.devRef .tc Cert.ReferenceIdeal.main_v69)) (ZR mR c (Proc.devRef .tc Cert.ReferenceIdeal.main_arg3))
          (ZR mR c (Proc.devRef .tc Cert.ReferenceIdeal.main_arg4)) (ZR mR c (Proc.devRef .tc Cert.ReferenceIdeal.main_arg5)) := (Cert.ReferenceIdeal.Math.yeTerm_eq _ _ _ _).symm
    _ = after Cert.ReferenceIdeal.Run.midB (ZR mR c) (Proc.devRef .tc Cert.ReferenceIdeal.main_v74) := (contractions_eq (ZR mR c)).symm

/-- From argument arrays that agree, the kernel program's result is the reference's. -/
theorem result_eq
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (h3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3))
    (h4 : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4))
    (h5 : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5)) :
    after Cert.ReferenceIdeal.Run.ops (launchContents mR c) (Proc.devRef .tc Cert.ReferenceIdeal.main_v97)
      = after tailK (Cert.KernelIdeal.Run.W mK c) (Proc.devRef .tc Cert.KernelIdeal.main_v97) := by
  have hV0 := V0_eq mK c
  -- the routing results agree
  have r18 : YK mK c (Proc.devRef .tc Cert.KernelIdeal.main_v18) = YR mR c (Proc.devRef .tc Cert.ReferenceIdeal.main_v18) := routing_token (launchContents mK c) (launchContents mR c) h1
  have r52 : YK mK c (Proc.devRef .tc Cert.KernelIdeal.main_v52) = YR mR c (Proc.devRef .tc Cert.ReferenceIdeal.main_v52) := routing_slot (launchContents mK c) (launchContents mR c) h1
  have r25 : YK mK c (Proc.devRef .tc Cert.KernelIdeal.main_v25) = YR mR c (Proc.devRef .tc Cert.ReferenceIdeal.main_v25) := routing_weight (launchContents mK c) (launchContents mR c) h1 h2
  have r48 : YK mK c (Proc.devRef .tc Cert.KernelIdeal.main_v48) = YR mR c (Proc.devRef .tc Cert.ReferenceIdeal.main_v48) := routing_valid (launchContents mK c) (launchContents mR c) h1
  -- the arguments pass the routing stretches unchanged
  have a0 : YK mK c (Proc.devRef .tc Cert.KernelIdeal.main_arg0) = YR mR c (Proc.devRef .tc Cert.ReferenceIdeal.main_arg0) := by
    exact (preK_arg0 (launchContents mK c)).trans (h0.symm.trans (pre_arg0 (launchContents mR c)).symm)
  have a3 : YK mK c (Proc.devRef .tc Cert.KernelIdeal.main_arg3) = YR mR c (Proc.devRef .tc Cert.ReferenceIdeal.main_arg3) := by
    exact (preK_arg3 (launchContents mK c)).trans (h3.symm.trans (pre_arg3 (launchContents mR c)).symm)
  have a4 : YK mK c (Proc.devRef .tc Cert.KernelIdeal.main_arg4) = YR mR c (Proc.devRef .tc Cert.ReferenceIdeal.main_arg4) := by
    exact (preK_arg4 (launchContents mK c)).trans (h4.symm.trans (pre_arg4 (launchContents mR c)).symm)
  have a5 : YK mK c (Proc.devRef .tc Cert.KernelIdeal.main_arg5) = YR mR c (Proc.devRef .tc Cert.ReferenceIdeal.main_arg5) := by
    exact (preK_arg5 (launchContents mK c)).trans (h5.symm.trans (pre_arg5 (launchContents mR c)).symm)
  rw [Cert.ReferenceIdeal.Run.ops_split, StableHlo.after_append, StableHlo.after_append, StableHlo.after_append]
  refine (combine_eq (Cert.KernelIdeal.Run.W mK c) _ ?_ ?_ ?_ ?_ ?_).symm
  · exact block_eq mK mR c r18 r52 a0 a3 a4 a5
  · rw [Cert.KernelIdeal.Run.W_of_ne mK c Cert.KernelIdeal.main_v18 (by decide), hV0, midK_v18, midB_v18, midA_v18]; exact r18
  · rw [Cert.KernelIdeal.Run.W_of_ne mK c Cert.KernelIdeal.main_v52 (by decide), hV0, midK_v52, midB_v52, midA_v52]; exact r52
  · rw [Cert.KernelIdeal.Run.W_of_ne mK c Cert.KernelIdeal.main_v25 (by decide), hV0, midK_v25, midB_v25, midA_v25]; exact r25
  · rw [Cert.KernelIdeal.Run.W_of_ne mK c Cert.KernelIdeal.main_v48 (by decide), hV0, midK_v48, midB_v48, midA_v48]; exact r48

end Cert.Bridge

end
-- ==== Proof.lean ====
/-
  A mixture-of-experts layer: every (token, expert) pair of the top-2 routing is sorted by expert, given a slot in its
  expert's block of 2048 rows (or the overflow row when the expert is full), the token rows are scattered to their
  slots, each expert applies its gated feed-forward block  y = ((x·Wg) ⊙ σ(x·Wg) ⊙ (x·Wu)) · Wd  to its rows, and each
  pair's output row, scaled by its routing weight, is added back into its token's row.

  The kernel program and the reference do the routing, the dispatch and the combine by the same host operations; they
  differ in the expert block — one tile of 512 rows per grid point on the matrix unit, on tokens and weights narrowed
  to sixteen bits, against three batched contractions on the host — and on the extended reals a narrowing is the
  identity, a matrix-unit product into a zero accumulator and a host contraction are the same sums, and the logistic
  function is 1 / (1 + e^(-x)) on both sides.  So both compute  Cert.Moe.expertOut  of the same rows and weights
  (Proof/KernelArray.lean, Proof/RefMath.lean), and the results agree (Proof/Bridge.lean).  The law that joins the two
  sides is reindexing of finite sums only; finiteness of the inputs is not used.

  The kernel programs' frames are their generated frame certificates; the reference is a straight line of host
  operations, whose run is the fold of its operations (Proof/RefRun.lean), and no operation writes an argument.
-/
import proofs.«111815_j24352464569736_1_alg».proof.Defs
import proofs.«111815_j24352464569736_1_alg».proof.Proof.Gen.Kernel
import proofs.«111815_j24352464569736_1_alg».proof.Proof.Gen.Kernel.Skeleton
import proofs.«111815_j24352464569736_1_alg».proof.Proof.Gen.Kernel.Launch
import proofs.«111815_j24352464569736_1_alg».proof.Proof.Gen.Kernel.Points
import proofs.«111815_j24352464569736_1_alg».proof.Proof.Gen.Kernel.Frame
import proofs.«111815_j24352464569736_1_alg».proof.Proof.Gen.KernelIdeal
import proofs.«111815_j24352464569736_1_alg».proof.Proof.Gen.KernelIdeal.Skeleton
import proofs.«111815_j24352464569736_1_alg».proof.Proof.Gen.KernelIdeal.Launch
import proofs.«111815_j24352464569736_1_alg».proof.Proof.Gen.KernelIdeal.Points
import proofs.«111815_j24352464569736_1_alg».proof.Proof.Gen.KernelIdeal.Frame
import proofs.«111815_j24352464569736_1_alg».proof.Proof.Gen.ReferenceIdeal
import proofs.«111815_j24352464569736_1_alg».proof.Proof.Gen.Pre_finite_inputs
import proofs.«111815_j24352464569736_1_alg».proof.Proof.KernelRun
import proofs.«111815_j24352464569736_1_alg».proof.Proof.RefRun
import proofs.«111815_j24352464569736_1_alg».proof.Proof.RefArgs
import proofs.«111815_j24352464569736_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs, and each argument array ends at the fold of the operations there, which is the array. -/
theorem frame_referenceIdeal : Cert.frame_ReferenceIdeal := fun m ρ _ =>
  (θ_run Cert.ReferenceIdeal.defs _ _).mono (fun _ h c =>
    ⟨(h c Cert.ReferenceIdeal.main_arg0).trans (Cert.Bridge.ops_arg0 _),
      (h c Cert.ReferenceIdeal.main_arg1).trans (Cert.Bridge.ops_arg1 _),
      (h c Cert.ReferenceIdeal.main_arg2).trans (Cert.Bridge.ops_arg2 _),
      (h c Cert.ReferenceIdeal.main_arg3).trans (Cert.Bridge.ops_arg3 _),
      (h c Cert.ReferenceIdeal.main_arg4).trans (Cert.Bridge.ops_arg4 _),
      (h c Cert.ReferenceIdeal.main_arg5).trans (Cert.Bridge.ops_arg5 _)⟩)
    (Cert.ReferenceIdeal.Run.run_main (F := Ideal) m ρ)

/-- Both idealized programs end with the combine stretch's fold over the expert block's output and the routing
    results; from arguments that agree these are equal. -/
theorem algebraic : Cert.algebraic_KernelIdeal_ReferenceIdeal := by
  intro m ρ m' ρ' _ hagree
  refine ⟨fun c => after Cert.Bridge.tailK (Cert.KernelIdeal.Run.W m c) (Proc.devRef .tc Cert.KernelIdeal.main_v97),
    Cert.KernelIdeal.Run.run m ρ, ?_⟩
  refine (θ_run Cert.ReferenceIdeal.defs _ _).mono (fun _ h c => ?_)
    (Cert.ReferenceIdeal.Run.run_main (F := Ideal) m' ρ')
  exact ⟨(h c Cert.ReferenceIdeal.main_v97).trans
      (Cert.Bridge.result_eq m m' c (hagree c).1 (hagree c).2.1 (hagree c).2.2.1 (hagree c).2.2.2.1 (hagree c).2.2.2.2.1
        (hagree c).2.2.2.2.2),
    (h c Cert.ReferenceIdeal.main_arg0).trans (Cert.Bridge.ops_arg0 _),
    (h c Cert.ReferenceIdeal.main_arg1).trans (Cert.Bridge.ops_arg1 _),
    (h c Cert.ReferenceIdeal.main_arg2).trans (Cert.Bridge.ops_arg2 _),
    (h c Cert.ReferenceIdeal.main_arg3).trans (Cert.Bridge.ops_arg3 _),
    (h c Cert.ReferenceIdeal.main_arg4).trans (Cert.Bridge.ops_arg4 _),
    (h c Cert.ReferenceIdeal.main_arg5).trans (Cert.Bridge.ops_arg5 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
